-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_99" .f32 0x3C257EB5#32 ((1 / 99 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S100x128 : Shape := ⟨2, ![100, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S262144x128 .f32) (main_arg1 : FVec F S100x128 .f32) (main_arg2 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg2 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_c_4 : IVec S_ 32 := constantI S_ 32 100#32
  let main_v13 : IVec S262144 32 := broadcastInDim S262144 ![] bcast_S_S262144 main_c_4
  let main_v14 : IVec S262144 1 := cmpi .slt main_arg2 main_v13
  let main_c_5 : IVec S_ 1 := constantI S_ 1 1#1
  let main_v15 : IVec S_ 1 := (fun x v => Host.reduce IntOp.andi x v reducesTo_S262144_S_d0 h_S_) main_v14 main_c_5
  fn_part1 (F := F) main_v12 main_v15
-- ==== Kernel.lean ====
abbrev S262144x128 : Shape := ⟨2, ![262144, 128]⟩
abbrev S100x128 : Shape := ⟨2, ![100, 128]⟩
abbrev S262144 : Shape := ⟨1, ![262144]⟩
abbrev S262144x1 : Shape := ⟨2, ![262144, 1]⟩
abbrev S_ : Shape := ⟨0, ![]⟩
abbrev S100 : Shape := ⟨1, ![100]⟩
abbrev S100x1 : Shape := ⟨2, ![100, 1]⟩
abbrev S1x100 : Shape := ⟨2, ![1, 100]⟩
abbrev S2x1x1 : Shape := ⟨3, ![2, 1, 1]⟩
abbrev S8192x128 : Shape := ⟨2, ![8192, 128]⟩
abbrev S8192x1 : Shape := ⟨2, ![8192, 1]⟩
abbrev S1x1x1 : Shape := ⟨3, ![1, 1, 1]⟩
abbrev S8192 : Shape := ⟨1, ![8192]⟩
abbrev S128x100 : Shape := ⟨2, ![128, 100]⟩
abbrev S8192x100 : Shape := ⟨2, ![8192, 100]⟩
abbrev S1 : Shape := ⟨1, ![1]⟩
abbrev S1x1 : Shape := ⟨2, ![1, 1]⟩

abbrev nBuf : Space → Nat
  | .hbm => 37
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S100x128, .f32⟩
  | .hbm, ⟨2, _⟩ => ⟨S262144, .i32⟩
  | .hbm, ⟨3, _⟩ => ⟨S262144x1, .i32⟩
  | .hbm, ⟨4, _⟩ => ⟨S100x128, .f32⟩
  | .hbm, ⟨5, _⟩ => ⟨S_, .f32⟩
  | .hbm, ⟨6, _⟩ => ⟨S100, .f32⟩
  | .hbm, ⟨7, _⟩ => ⟨S100x1, .f32⟩
  | .hbm, ⟨8, _⟩ => ⟨S100x1, .f32⟩
  | .hbm, ⟨9, _⟩ => ⟨S_, .f32⟩
  | .hbm, ⟨10, _⟩ => ⟨S100x1, .f32⟩
  | .hbm, ⟨11, _⟩ => ⟨S100x1, .f32⟩
  | .hbm, ⟨12, _⟩ => ⟨S100x128, .f32⟩
  | .hbm, ⟨13, _⟩ => ⟨S100x128, .f32⟩
  | .hbm, ⟨14, _⟩ => ⟨S100x128, .f32⟩
  | .hbm, ⟨15, _⟩ => ⟨S_, .f32⟩
  | .hbm, ⟨16, _⟩ => ⟨S100, .f32⟩
  | .hbm, ⟨17, _⟩ => ⟨S_, .f32⟩
  | .hbm, ⟨18, _⟩ => ⟨S100, .f32⟩
  | .hbm, ⟨19, _⟩ => ⟨S_, .f32⟩
  | .hbm, ⟨20, _⟩ => ⟨S100, .f32⟩
  | .hbm, ⟨21, _⟩ => ⟨S100, .f32⟩
  | .hbm, ⟨22, _⟩ => ⟨S100, .f32⟩
  | .hbm, ⟨23, _⟩ => ⟨S_, .f32⟩
  | .hbm, ⟨24, _⟩ => ⟨S100, .f32⟩
  | .hbm, ⟨25, _⟩ => ⟨S100, .f32⟩
  | .hbm, ⟨26, _⟩ => ⟨S1x100, .f32⟩
  | .hbm, ⟨27, _⟩ => ⟨S100, .i32⟩
  | .hbm, ⟨28, _⟩ => ⟨S1x100, .i32⟩
  | .hbm, ⟨29, _⟩ => ⟨S2x1x1, .f32⟩
  | .hbm, ⟨30, _⟩ => ⟨S1x1x1, .f32⟩
  | .hbm, ⟨31, _⟩ => ⟨S_, .f32⟩
  | .hbm, ⟨32, _⟩ => ⟨S1x1x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S100x128, .f32⟩
  | .local _ .vmem, ⟨3, _⟩ => ⟨S1x100, .f32⟩
  | .local _ .vmem, ⟨4, _⟩ => ⟨S1x100, .i32⟩
  | .local _ .vmem, ⟨5, _⟩ => ⟨S8192x1, .i32⟩
  | .local _ .vmem, ⟨6, _⟩ => ⟨S8192x1, .i32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_31 : BitVec 32 := 0#32
  let v70 : BitVec 1 := Scalar.cmpi .ne v69 c0_i32_31
  v70

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x100 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8192x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S262144_S262144x1 : S262144.ShapeCasts S262144x1
  reducesTo_S100x128_S100_d1 : S100x128.ReducesTo [1] S100
  h_S_ : 0 < S_.numel
  bcast_S100_S100x1_0 : S100.BroadcastsInDim S100x1 (![0] : Fin 1 → Fin S100x1.rank)
  bcast_S_S100x1 : S_.BroadcastsInDim S100x1 (![] : Fin 0 → Fin S100x1.rank)
  bcast_S100x1_S100x128_0_1 : S100x1.BroadcastsInDim S100x128 (![0, 1] : Fin 2 → Fin S100x128.rank)
  bcast_S_S100 : S_.BroadcastsInDim S100 (![] : Fin 0 → Fin S100.rank)
  shapeCasts_S100_S1x100 : S100.ShapeCasts S1x100
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  inb_S100x128_S100x128_0_0 : ∀ a, (![0, 0] : Fin 2 → Nat) a + S100x128.size a ≤ S100x128.size a
  h_S100x128 : 0 < S100x128.numel
  shapeCasts_S100x128_S100x128 : S100x128.ShapeCasts S100x128
  bitsLt_bf16_f32 : FTy.bits .bf16 < FTy.bits .f32
  transposes_S100x128_p1_0_S128x100 : S100x128.Transposes [1, 0] S128x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S8192x100 : S1x100.Broadcasts S8192x100
  broadcasts_S8192x1_S8192x100 : S8192x1.Broadcasts S8192x100
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x100_S8192 : S8192x100.Reduces [1] S8192
  reduces_S8192x1_S1 : S8192x1.Reduces [0] S1
  shapeCasts_S1_S1x1 : S1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  dot_S8192x128_S128x100_S8192x100_1_0_0_1_n_n_wf : DotDims.WF S8192x128 S128x100 S8192x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .i32 = 32 ∨ (Rect.block (s := S1x100) S1x100.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x1.size a ≤ S262144x1.size a
  hwx0_4 : ∀ i : grid0.Coords, EltTy.bits .i32 = 32 ∨ (Rect.block (s := S262144x1) S8192x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def dot_S8192x128_S128x100_S8192x100_1_0_0_1_n_n : DotDims S8192x128 S128x100 S8192x100 where
  lhsContracting := [1]
  rhsContracting := [0]
  lhsNonContracting := [0]
  rhsNonContracting := [1]
  lhsBatch := []
  rhsBatch := []
  wf := dot_S8192x128_S128x100_S8192x100_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8192x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S262144x128 : Shape := ⟨2, ![262144, 128]⟩
abbrev S100x128 : Shape := ⟨2, ![100, 128]⟩
abbrev S262144 : Shape := ⟨1, ![262144]⟩
abbrev S_ : Shape := ⟨0, ![]⟩
abbrev S262144x1 : Shape := ⟨2, ![262144, 1]⟩
abbrev S100 : Shape := ⟨1, ![100]⟩
abbrev S100x1 : Shape := ⟨2, ![100, 1]⟩
abbrev S128x100 : Shape := ⟨2, ![128, 100]⟩
abbrev S262144x100 : Shape := ⟨2, ![262144, 100]⟩
abbrev S1x100 : Shape := ⟨2, ![1, 100]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S100x128, .f32⟩
  | .hbm, ⟨2, _⟩ => ⟨S262144, .i32⟩
  | .hbm, ⟨3, _⟩ => ⟨S262144x128, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S262144x1, .f32⟩
  | .hbm, ⟨8, _⟩ => ⟨S_, .f32⟩
  | .hbm, ⟨9, _⟩ => ⟨S262144x1, .f32⟩
  | .hbm, ⟨10, _⟩ => ⟨S262144x1, .f32⟩
  | .hbm, ⟨11, _⟩ => ⟨S262144x128, .f32⟩
  | .hbm, ⟨12, _⟩ => ⟨S262144x128, .f32⟩
  | .hbm, ⟨13, _⟩ => ⟨S100x128, .f32⟩
  | .hbm, ⟨14, _⟩ => ⟨S_, .f32⟩
  | .hbm, ⟨15, _⟩ => ⟨S100, .f32⟩
  | .hbm, ⟨16, _⟩ => ⟨S100x1, .f32⟩
  | .hbm, ⟨17, _⟩ => ⟨S100x1, .f32⟩
  | .hbm, ⟨18, _⟩ => ⟨S_, .f32⟩
  | .hbm, ⟨19, _⟩ => ⟨S100x1, .f32⟩
  | .hbm, ⟨20, _⟩ => ⟨S100x1, .f32⟩
  | .hbm, ⟨21, _⟩ => ⟨S100x128, .f32⟩
  | .hbm, ⟨22, _⟩ => ⟨S100x128, .f32⟩
  | .hbm, ⟨23, _⟩ => ⟨S128x100, .f32⟩
  | .hbm, ⟨24, _⟩ => ⟨S262144x100, .f32⟩
  | .hbm, ⟨25, _⟩ => ⟨S262144x128, .f32⟩
  | .hbm, ⟨26, _⟩ => ⟨S_, .f32⟩
  | .hbm, ⟨27, _⟩ => ⟨S262144, .f32⟩
  | .hbm, ⟨28, _⟩ => ⟨S100x128, .f32⟩
  | .hbm, ⟨29, _⟩ => ⟨S_, .f32⟩
  | .hbm, ⟨30, _⟩ => ⟨S100, .f32⟩
  | .hbm, ⟨31, _⟩ => ⟨S_, .f32⟩
  | .hbm, ⟨32, _⟩ => ⟨S262144, .f32⟩
  | .hbm, ⟨33, _⟩ => ⟨S_, .f32⟩
  | .hbm, ⟨34, _⟩ => ⟨S100, .f32⟩
  | .hbm, ⟨35, _⟩ => ⟨S262144x1, .f32⟩
  | .hbm, ⟨36, _⟩ => ⟨S1x100, .f32⟩
  | .hbm, ⟨37, _⟩ => ⟨S262144x100, .f32⟩
  | .hbm, ⟨38, _⟩ => ⟨S262144x100, .f32⟩
  | .hbm, ⟨39, _⟩ => ⟨S262144x100, .f32⟩
  | .hbm, ⟨40, _⟩ => ⟨S_, .f32⟩
  | .hbm, ⟨41, _⟩ => ⟨S262144x100, .f32⟩
  | .hbm, ⟨42, _⟩ => ⟨S262144x100, .f32⟩
  | .hbm, ⟨43, _⟩ => ⟨S262144x100, .f32⟩
  | .hbm, ⟨44, _⟩ => ⟨S262144x1, .f32⟩
  | .hbm, ⟨45, _⟩ => ⟨S1x100, .f32⟩
  | .hbm, ⟨46, _⟩ => ⟨S262144x100, .f32⟩
  | .hbm, ⟨47, _⟩ => ⟨S262144x100, .f32⟩
  | .hbm, ⟨48, _⟩ => ⟨S262144x100, .f32⟩
  | .hbm, ⟨49, _⟩ => ⟨S_, .f32⟩
  | .hbm, ⟨50, _⟩ => ⟨S262144x100, .f32⟩
  | .hbm, ⟨51, _⟩ => ⟨S262144x100, .f32⟩
  | .hbm, ⟨52, _⟩ => ⟨S262144x100, .f32⟩
  | .hbm, ⟨53, _⟩ => ⟨S_, .f32⟩
  | .hbm, ⟨54, _⟩ => ⟨S262144x100, .f32⟩
  | .hbm, ⟨55, _⟩ => ⟨S262144x100, .f32⟩
  | .hbm, ⟨56, _⟩ => ⟨S_, .f32⟩
  | .hbm, ⟨57, _⟩ => ⟨S262144x100, .f32⟩
  | .hbm, ⟨58, _⟩ => ⟨S262144x100, .f32⟩
  | .hbm, ⟨59, _⟩ => ⟨S262144x100, .f32⟩
  | .hbm, ⟨60, _⟩ => ⟨S262144x1, .i32⟩
  | .hbm, ⟨61, _⟩ => ⟨S_, .i32⟩
  | .hbm, ⟨62, _⟩ => ⟨S262144x1, .i32⟩
  | .hbm, ⟨63, _⟩ => ⟨S262144x1, .i1⟩
  | .hbm, ⟨64, _⟩ => ⟨S_, .i32⟩
  | .hbm, ⟨65, _⟩ => ⟨S262144x1, .i32⟩
  | .hbm, ⟨66, _⟩ => ⟨S262144x1, .i32⟩
  | .hbm, ⟨67, _⟩ => ⟨S262144x1, .i32⟩
  | .hbm, ⟨68, _⟩ => ⟨S262144x1x1, .i32⟩
  | .hbm, ⟨69, _⟩ => ⟨S1, .i32⟩
  | .hbm, ⟨70, _⟩ => ⟨S_, .i32⟩
  | .hbm, ⟨71, _⟩ => ⟨S262144x1x1, .i32⟩
  | .hbm, ⟨72, _⟩ => ⟨S262144x1x1, .i1⟩
  | .hbm, ⟨73, _⟩ => ⟨S1x1x1, .i32⟩
  | .hbm, ⟨74, _⟩ => ⟨S262144x1x1, .i32⟩
  | .hbm, ⟨75, _⟩ => ⟨S262144x1x1, .i1⟩
  | .hbm, ⟨76, _⟩ => ⟨S262144x1x1, .i1⟩
  | .hbm, ⟨77, _⟩ => ⟨S_, .i1⟩
  | .hbm, ⟨78, _⟩ => ⟨S262144x1, .i1⟩
  | .hbm, ⟨79, _⟩ => ⟨S262144x1, .f32⟩
  | .hbm, ⟨80, _⟩ => ⟨S_, .f32⟩
  | .hbm, ⟨81, _⟩ => ⟨S262144x1, .f32⟩
  | .hbm, ⟨82, _⟩ => ⟨S262144x1, .f32⟩
  | .hbm, ⟨83, _⟩ => ⟨S262144x100, .f32⟩
  | .hbm, ⟨84, _⟩ => ⟨S262144x100, .f32⟩
  | .hbm, ⟨85, _⟩ => ⟨S_, .f32⟩
  | .hbm, ⟨86, _⟩ => ⟨S262144x100, .f32⟩
  | .hbm, ⟨87, _⟩ => ⟨S262144x100, .f32⟩
  | .hbm, ⟨88, _⟩ => ⟨S_, .f32⟩
  | .hbm, ⟨89, _⟩ => ⟨S262144x100, .f32⟩
  | .hbm, ⟨90, _⟩ => ⟨S262144x100, .f32⟩
  | .hbm, ⟨91, _⟩ => ⟨S100, .i32⟩
  | .hbm, ⟨92, _⟩ => ⟨S1x100, .i32⟩
  | .hbm, ⟨93, _⟩ => ⟨S262144x1, .i32⟩
  | .hbm, ⟨94, _⟩ => ⟨S262144x100, .i32⟩
  | .hbm, ⟨95, _⟩ => ⟨S262144x100, .i32⟩
  | .hbm, ⟨96, _⟩ => ⟨S262144x100, .i1⟩
  | .hbm, ⟨97, _⟩ => ⟨S_, .f32⟩
  | .hbm, ⟨98, _⟩ => ⟨S_, .f32⟩
  | .hbm, ⟨99, _⟩ => ⟨S262144x100, .f32⟩
  | .hbm, ⟨100, _⟩ => ⟨S262144x100, .f32⟩
  | .hbm, ⟨101, _⟩ => ⟨S_, .f32⟩
  | .hbm, ⟨102, _⟩ => ⟨S262144, .f32⟩
  | .hbm, ⟨103, _⟩ => ⟨S_, .f32⟩
  | .hbm, ⟨104, _⟩ => ⟨S262144, .f32⟩
  | .hbm, ⟨105, _⟩ => ⟨S262144, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_c : Ref sig .tc := ⟨.hbm, 61, rfl⟩
abbrev main_call0_v0 : Ref sig .tc := ⟨.hbm, 62, rfl⟩
abbrev main_call0_v1 : Ref sig .tc := ⟨.hbm, 63, rfl⟩
abbrev main_call0_c_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_c_1 : Ref sig .tc := ⟨.hbm, 69, rfl⟩
abbrev main_call0_c_2 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_c_3 : Ref sig .tc := ⟨.hbm, 77, rfl⟩
abbrev main_call0_v12 : Ref sig .tc := ⟨.hbm, 78, rfl⟩
abbrev main_call0_v13 : Ref sig .tc := ⟨.hbm, 79, rfl⟩
abbrev main_call0_cst : Ref sig .tc := ⟨.hbm, 80, rfl⟩
abbrev main_call0_v14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_11 : Ref sig .tc := ⟨.hbm, 85, rfl⟩
abbrev main_v49 : Ref sig .tc := ⟨.hbm, 86, rfl⟩
abbrev main_v50 : Ref sig .tc := ⟨.hbm, 87, rfl⟩
abbrev main_call1_cst : Ref sig .tc := ⟨.hbm, 88, rfl⟩
abbrev main_call1_v0 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_12 : Ref sig .tc := ⟨.hbm, 97, rfl⟩
abbrev main_call2_v0 : Ref sig .tc := ⟨.hbm, 98, rfl⟩
abbrev main_call2_v1 : Ref sig .tc := ⟨.hbm, 99, rfl⟩
abbrev main_v58 : Ref sig .tc := ⟨.hbm, 100, rfl⟩
abbrev main_cst_13 : Ref sig .tc := ⟨.hbm, 101, rfl⟩
abbrev main_v59 : Ref sig .tc := ⟨.hbm, 102, rfl⟩
abbrev main_cst_14 : Ref sig .tc := ⟨.hbm, 103, rfl⟩
abbrev main_v60 : Ref sig .tc := ⟨.hbm, 104, rfl⟩
abbrev main_v61 : Ref sig .tc := ⟨.hbm, 105, rfl⟩
abbrev main_cst_15 : Ref sig .tc := ⟨.hbm, 106, rfl⟩
abbrev main_v62 : Ref sig .tc := ⟨.hbm, 107, rfl⟩
abbrev main_cst_16 : Ref sig .tc := ⟨.hbm, 108, rfl⟩
abbrev main_v63 : Ref sig .tc := ⟨.hbm, 109, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x128_0_1 : S262144x1.BroadcastsInDim S262144x128 (![0, 1] : Fin 2 → Fin S262144x128.rank)
  reducesTo_S100x128_S100_d1 : S100x128.ReducesTo [1] S100
  bcast_S100_S100x1_0 : S100.BroadcastsInDim S100x1 (![0] : Fin 1 → Fin S100x1.rank)
  bcast_S_S100x1 : S_.BroadcastsInDim S100x1 (![] : Fin 0 → Fin S100x1.rank)
  bcast_S100x1_S100x128_0_1 : S100x1.BroadcastsInDim S100x128 (![0, 1] : Fin 2 → Fin S100x128.rank)
  transposes_S100x128_S128x100_1_0 : S100x128.Transposes [1, 0] S128x100
  bcast_S100_S1x100_1 : S100.BroadcastsInDim S1x100 (![1] : Fin 1 → Fin S1x100.rank)
  bcast_S262144x1_S262144x100_0_1 : S262144x1.BroadcastsInDim S262144x100 (![0, 1] : Fin 2 → Fin S262144x100.rank)
  bcast_S1x100_S262144x100_0_1 : S1x100.BroadcastsInDim S262144x100 (![0, 1] : Fin 2 → Fin S262144x100.rank)
  bcast_S_S262144x100 : S_.BroadcastsInDim S262144x100 (![] : Fin 0 → Fin S262144x100.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  reducesTo_S262144x100_S262144_d1 : S262144x100.ReducesTo [1] S262144
  bcast_S_S262144 : S_.BroadcastsInDim S262144 (![] : Fin 0 → Fin S262144.rank)
  reducesTo_S262144_S_d0 : S262144.ReducesTo [0] S_
  dot_S262144x128_S128x100_S262144x100_1_0_0_1_n_n_wf : DotDims.WF S262144x128 S128x100 S262144x100 [1] [0] [0] [1] [] []
  gather_S262144x100_S262144x1x1_S262144x1_n_1_0_0_1_2_11_wf : GatherDims.WF S262144x100 S262144x1x1 S262144x1 [] [1] [0] [1] [0] 2 ![1, 1]

variable [Facts₀]

def dot_S262144x128_S128x100_S262144x100_1_0_0_1_n_n : DotDims S262144x128 S128x100 S262144x100 where
  lhsContracting := [1]
  rhsContracting := [0]
  lhsNonContracting := [0]
  rhsNonContracting := [1]
  lhsBatch := []
  rhsBatch := []
  wf := dot_S262144x128_S128x100_S262144x100_1_0_0_1_n_n_wf
def gather_S262144x100_S262144x1x1_S262144x1_n_1_0_0_1_2_11 : GatherDims S262144x100 S262144x1x1 S262144x1 where
  offsetDims := []
  collapsedSliceDims := [1]
  operandBatchingDims := [0]
  startIndicesBatchingDims := [0]
  startIndexMap := [1]
  indexVectorDim := 2
  sliceSizes := ![1, 1]
  wf := gather_S262144x100_S262144x1x1_S262144x1_n_1_0_0_1_2_11_wf

class Facts : Prop extends Facts₀ where

variable [Facts]
-- ==== Proof.Spec.lean ====
/-
  The mathematics of the triplet loss over class prototypes, on the extended reals.

  A feature row `x` and a prototype row `p` (128 entries each) are divided by `max(‖·‖, ε)`; the squared distance
  `‖f - q + e‖²` between the two unit rows (`e` a constant shift of every coordinate) is expanded in two ways:
  the first keeps the feature's part `f·f + 2e·Σf` and the prototype's part `q·q - 2e·Σq + 128e²` apart and adds
  them to `-2 f·q`; the second adds `f·f + q·q - 2 f·q + 2e·(Σf - Σq) + 128e²` from left to right. A row's loss is
  the mean over the 99 other classes of `max(d(label) - d(c) + 1/2, 0)`: the first form sums over ALL classes, where
  the label's own term is exactly `1/2`, and subtracts it; the second masks the label's class out.  The batch loss is
  the mean of the rows' losses.  The two forms agree when every entry is a real number and every label is a class.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The clamp under a norm and under a squared distance (the f32 nearest `1e-12`). -/
abbrev E12 : EReal := Ideal.ofBits .f32 0x2B8CBCCC#32
/-- Twice the coordinate shift (the f32 nearest `2e-6`). -/
abbrev C2E6 : EReal := Ideal.ofBits .f32 0x360637BD#32
/-- 128 times the shift squared (the f32 nearest `1.28e-10`). -/
abbrev CDE2 : EReal := Ideal.ofBits .f32 0x2F0CBCCC#32
abbrev TWO : EReal := Ideal.ofBits .f32 0x40000000#32
/-- The margin, `1/2`. -/
abbrev HALF : EReal := Ideal.ofBits .f32 0x3F000000#32
/-- The number of other classes, `99`. -/
abbrev C99 : EReal := Ideal.ofBits .f32 0x42C60000#32
/-- The batch size, `262144`. -/
abbrev NB : EReal := Ideal.ofBits .f32 0x48800000#32
/-- What a gather out of range is filled with. -/
abbrev FILL : EReal := Ideal.ofBits .f32 0x7FC00000#32
abbrev INV99 : EReal := ((1 / 99 : ℝ) : EReal)

/-- A row over `max(‖row‖, ε)`. -/
def unit (x : Fin 128 → EReal) (k : Fin 128) : EReal :=
  Ideal.div (x k) (max (Ideal.sqrt (∑ j, x j * x j)) E12)
def sq (x : Fin 128 → EReal) : EReal := ∑ k, x k * x k
def tot (x : Fin 128 → EReal) : EReal := ∑ k, x k
def dot (x y : Fin 128 → EReal) : EReal := ∑ k, x k * y k

/-- The prototype's part of the squared distance, from a unit prototype row. -/
def browOf (q : Fin 128 → EReal) : EReal := (sq q - C2E6 * tot q) + CDE2

/-- The distance in the first form, from the feature row, a unit prototype row and the prototype's part. -/
def distOf (x q : Fin 128 → EReal) (b : EReal) : EReal :=
  Ideal.sqrt (max ((sq (unit x) + C2E6 * tot (unit x)) + (b - TWO * dot (unit x) q)) E12)

/-- The first form of the distance between a feature row and a prototype row. -/
def distK (x p : Fin 128 → EReal) : EReal := distOf x (unit p) (browOf (unit p))

/-- The second form. -/
def distR (x p : Fin 128 → EReal) : EReal :=
  Ideal.sqrt (max (((((sq (unit x) + sq (unit p)) - TWO * dot (unit x) (unit p))
    + C2E6 * (tot (unit x) - tot (unit p))) + CDE2)) E12)

/-- A row's loss in the first form, from its distances `d` to the classes, its label word `l` and the classes' words:
    the label's distance as a sum over the one class whose word is the label, every class's hinge summed, the label's
    own `1/2` taken off, times `1/99`. -/
def rowOfDist (d : Fin 100 → EReal) (l : BitVec 32) (cls : Fin 100 → BitVec 32) : EReal :=
  ((∑ c, max (((∑ c', Scalar.select (IntOp.cmpi .eq l (cls c')) (d c') 0) + HALF) - d c) 0) - HALF) * INV99

/-- A row's loss in the second form: the label's distance read at a column `j` when `inb` is set (else the fill),
    the hinge of the classes other than the label summed, over `99`. -/
def rowOfDistR (d : Fin 100 → EReal) (l : BitVec 32) (inb : BitVec 1) (j : Fin 100) : EReal :=
  Ideal.div (∑ c : Fin 100, Scalar.select (IntOp.cmpi .ne (BitVec.ofNat 32 c.val) l)
    (max ((Scalar.select inb (d j) FILL - d c) + HALF) 0) 0) C99

/-- A label word with a negative one wrapped around the class axis. -/
def wrapLabel (l : BitVec 32) : BitVec 32 := Scalar.select (IntOp.cmpi .slt l 0#32) (IntOp.addi l 100#32) l
/-- Whether the wrapped label is a class. -/
def inbLabel (l : BitVec 32) : BitVec 1 :=
  IntOp.andi (IntOp.cmpi .sge (wrapLabel l) 0#32) (IntOp.cmpi .sle (wrapLabel l) 99#32)
/-- The column a gather reads for it: the wrapped label, read signed, clamped to the axis. -/
def colLabel (l : BitVec 32) : Fin 100 := ⟨min (wrapLabel l).toInt.toNat 99, by omega⟩

def rowK (x : Fin 128 → EReal) (P : Fin 100 → Fin 128 → EReal) (l : BitVec 32) : EReal :=
  rowOfDist (fun c => distK x (P c)) l (fun c => BitVec.ofNat 32 c.val)

def rowR (x : Fin 128 → EReal) (P : Fin 100 → Fin 128 → EReal) (l : BitVec 32) : EReal :=
  rowOfDistR (fun c => distR x (P c)) l (inbLabel l) (colLabel l)

/-- The batch loss, first form. -/
def GK (X : Fin 262144 → Fin 128 → EReal) (P : Fin 100 → Fin 128 → EReal) (L : Fin 262144 → BitVec 32) : EReal :=
  Ideal.div (∑ b, rowK (X b) P (L b)) NB
/-- The batch loss, second form. -/
def GR (X : Fin 262144 → Fin 128 → EReal) (P : Fin 100 → Fin 128 → EReal) (L : Fin 262144 → BitVec 32) : EReal :=
  Ideal.div (∑ b, rowR (X b) P (L b)) NB

/-- The rows of a matrix held as an array over rank-2 indices. -/
def rows {n k : Nat} (a : (⟨2, ![n, k]⟩ : Shape).Idx → EReal) : Fin n → Fin k → EReal := fun b j => a (ix2 b j)
/-- The entries of a vector held as an array over rank-1 indices. -/
def ents {n : Nat} {α : Type} (a : (⟨1, ![n]⟩ : Shape).Idx → α) : Fin n → α := fun b => a (ix1 b)

end Cert.Spec

end
-- ==== Proof.RefDist.lean ====
/-
  The reference's matrix of distances, read at (row b, class c): the second form of the distance between feature row
  `b` and prototype row `c` — both rows over `max(‖row‖, ε)`, then
  `√max(f·f + q·q - 2 f·q + 2e·(Σf - Σq) + 128e², ε)` added up from left to right.
-/
import proofs.«402777_j61521111548487_3_alg».proof.Proof.RefRead
import proofs.«402777_j61521111548487_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefDist

open Idealize.ShloMosaic Idealize.ShloMosaic.ValueIdx Cert.ReferenceIdeal Cert.ReferenceIdeal.ReadP

/-- The feature matrix over its rows' clamped norms, at (b, k): the unit row of feature row `b` at `k`. -/
theorem f_apply (x0 : (⟨S262144x128, .f32⟩ : BufTy).Contents (Elt Ideal)) (b : Fin 262144) (k : Fin 128) :
    val_main_v7 (F := Ideal) x0 (ix2 b k) = Cert.Spec.unit (Cert.Spec.rows x0 b) k := by
  have e6 : idx_main_v6 (ix2 b k) = ix2 b (0 : Fin 1) :=
    funext fun a => Fin.ext (by match a with | ⟨0, _⟩ => rfl | ⟨1, _⟩ => rfl)
  have e2 : idx_main_v2 (ix2 b (0 : Fin 1)) = ix1 b := funext fun a => Fin.ext (by match a with | ⟨0, _⟩ => rfl)
  have e1 : ∀ j : Fin 128, idx_main_v1 (ix1 b) j = ix2 b j := fun j =>
    funext fun a => Fin.ext (by match a with | ⟨0, _⟩ => rfl | ⟨1, _⟩ => rfl)
  rw [val_main_v7_apply, val_main_v6_apply, val_main_v5_apply, val_main_v3_apply, val_main_v4_apply,
    val_main_cst_0_apply, e6, val_main_v2_apply, e2, val_main_v1_apply, val_main_cst_apply]
  simp only [val_main_v0_apply, e1, Ideal.ofBits_zero_f32, zero_add, Ideal.hostDivf_def, Ideal.hostUnary_sqrt_def,
    Ideal.maximumf_def, Ideal.mulf_def, Ideal.ofBits_def]
  rfl

/-- The prototype matrix over its rows' clamped norms, at (c, k): the unit row of prototype row `c` at `k`. -/
theorem p_apply (x1 : (⟨S100x128, .f32⟩ : BufTy).Contents (Elt Ideal)) (c : Fin 100) (k : Fin 128) :
    val_main_v15 (F := Ideal) x1 (ix2 c k) = Cert.Spec.unit (Cert.Spec.rows x1 c) k := by
  have e14 : idx_main_v14 (ix2 c k) = ix2 c (0 : Fin 1) :=
    funext fun a => Fin.ext (by match a with | ⟨0, _⟩ => rfl | ⟨1, _⟩ => rfl)
  have e10 : idx_main_v10 (ix2 c (0 : Fin 1)) = ix1 c := funext fun a => Fin.ext (by match a with | ⟨0, _⟩ => rfl)
  have e9 : ∀ j : Fin 128, idx_main_v9 (ix1 c) j = ix2 c j := fun j =>
    funext fun a => Fin.ext (by match a with | ⟨0, _⟩ => rfl | ⟨1, _⟩ => rfl)
  rw [val_main_v15_apply, val_main_v14_apply, val_main_v13_apply, val_main_v11_apply, val_main_v12_apply,
    val_main_cst_2_apply, e14, val_main_v10_apply, e10, val_main_v9_apply, val_main_cst_1_apply]
  simp only [val_main_v8_apply, e9, Ideal.ofBits_zero_f32, zero_add, Ideal.hostDivf_def, Ideal.hostUnary_sqrt_def,
    Ideal.maximumf_def, Ideal.mulf_def, Ideal.ofBits_def]
  rfl

/-- The sum of squares of unit feature row `b`. -/
theorem sqf_apply (x0 : (⟨S262144x128, .f32⟩ : BufTy).Contents (Elt Ideal)) (b : Fin 262144) :
    val_main_v19 (F := Ideal) x0 (ix1 b) = Cert.Spec.sq (Cert.Spec.unit (Cert.Spec.rows x0 b)) := by
  have e : ∀ j : Fin 128, idx_main_v19 (ix1 b) j = ix2 b j := fun j =>
    funext fun a => Fin.ext (by match a with | ⟨0, _⟩ => rfl | ⟨1, _⟩ => rfl)
  rw [val_main_v19_apply, val_main_cst_3_apply]
  simp only [val_main_v18_apply, e, f_apply, Ideal.ofBits_zero_f32, zero_add, Ideal.mulf_def, Ideal.ofBits_def]
  rfl

/-- The sum of squares of unit prototype row `c`. -/
theorem sqp_apply (x1 : (⟨S100x128, .f32⟩ : BufTy).Contents (Elt Ideal)) (c : Fin 100) :
    val_main_v21 (F := Ideal) x1 (ix1 c) = Cert.Spec.sq (Cert.Spec.unit (Cert.Spec.rows x1 c)) := by
  have e : ∀ j : Fin 128, idx_main_v21 (ix1 c) j = ix2 c j := fun j =>
    funext fun a => Fin.ext (by match a with | ⟨0, _⟩ => rfl | ⟨1, _⟩ => rfl)
  rw [val_main_v21_apply, val_main_cst_4_apply]
  simp only [val_main_v20_apply, e, p_apply, Ideal.ofBits_zero_f32, zero_add, Ideal.mulf_def, Ideal.ofBits_def]
  rfl

/-- The sum of the entries of unit feature row `b`. -/
theorem totf_apply (x0 : (⟨S262144x128, .f32⟩ : BufTy).Contents (Elt Ideal)) (b : Fin 262144) :
    val_main_v22 (F := Ideal) x0 (ix1 b) = Cert.Spec.tot (Cert.Spec.unit (Cert.Spec.rows x0 b)) := by
  have e : ∀ j : Fin 128, idx_main_v22 (ix1 b) j = ix2 b j := fun j =>
    funext fun a => Fin.ext (by match a with | ⟨0, _⟩ => rfl | ⟨1, _⟩ => rfl)
  rw [val_main_v22_apply, val_main_cst_5_apply]
  simp only [e, f_apply, Ideal.ofBits_zero_f32, zero_add, Ideal.ofBits_def]
  rfl

/-- The sum of the entries of unit prototype row `c`. -/
theorem totp_apply (x1 : (⟨S100x128, .f32⟩ : BufTy).Contents (Elt Ideal)) (c : Fin 100) :
    val_main_v23 (F := Ideal) x1 (ix1 c) = Cert.Spec.tot (Cert.Spec.unit (Cert.Spec.rows x1 c)) := by
  have e : ∀ j : Fin 128, idx_main_v23 (ix1 c) j = ix2 c j := fun j =>
    funext fun a => Fin.ext (by match a with | ⟨0, _⟩ => rfl | ⟨1, _⟩ => rfl)
  rw [val_main_v23_apply, val_main_cst_6_apply]
  simp only [e, p_apply, Ideal.ofBits_zero_f32, zero_add, Ideal.ofBits_def]
  rfl

/-- The product of the two unit matrices at (b, c): the dot product of unit feature row `b` and unit prototype row `c`. -/
theorem dot_apply (x0 : (⟨S262144x128, .f32⟩ : BufTy).Contents (Elt Ideal)) (x1 : (⟨S100x128, .f32⟩ : BufTy).Contents (Elt Ideal))
    (b : Fin 262144) (c : Fin 100) :
    val_main_v17 (F := Ideal) x0 x1 (ix2 b c)
      = Cert.Spec.dot (Cert.Spec.unit (Cert.Spec.rows x0 b)) (Cert.Spec.unit (Cert.Spec.rows x1 c)) := by
  have el : ∀ j : Fin 128, lidx_main_v17 (ix2 b c) j = ix2 b j := fun j =>
    funext fun a => Fin.ext (by match a with | ⟨0, _⟩ => rfl | ⟨1, _⟩ => rfl)
  have er : ∀ j : Fin 128, idx_main_v16 (ridx_main_v17 (ix2 b c) j) = ix2 c j := fun j =>
    funext fun a => Fin.ext (by match a with | ⟨0, _⟩ => rfl | ⟨1, _⟩ => rfl)
  rw [val_main_v17_apply]
  simp only [el, val_main_v16_apply, er, f_apply, p_apply]
  rfl

/-- The distance matrix at (b, c) is the second-form distance of feature row `b` to prototype row `c`. -/
theorem dist_apply (x0 : (⟨S262144x128, .f32⟩ : BufTy).Contents (Elt Ideal)) (x1 : (⟨S100x128, .f32⟩ : BufTy).Contents (Elt Ideal))
    (b : Fin 262144) (c : Fin 100) :
    val_main_v44 (F := Ideal) x0 x1 (ix2 b c) = Cert.Spec.distR (Cert.Spec.rows x0 b) (Cert.Spec.rows x1 c) := by
  have ea : idx_main_v24 (idx_main_v26 (ix2 b c)) = ix1 b := funext fun a => Fin.ext (by match a with | ⟨0, _⟩ => rfl)
  have eb : idx_main_v25 (idx_main_v27 (ix2 b c)) = ix1 c := funext fun a => Fin.ext (by match a with | ⟨0, _⟩ => rfl)
  have ec : idx_main_v32 (idx_main_v34 (ix2 b c)) = ix1 b := funext fun a => Fin.ext (by match a with | ⟨0, _⟩ => rfl)
  have ed : idx_main_v33 (idx_main_v35 (ix2 b c)) = ix1 c := funext fun a => Fin.ext (by match a with | ⟨0, _⟩ => rfl)
  rw [val_main_v44_apply, val_main_v43_apply, val_main_v42_apply, val_main_cst_10_apply, val_main_v41_apply,
    val_main_v40_apply, val_main_cst_9_apply, val_main_v39_apply, val_main_v38_apply, val_main_v37_apply,
    val_main_cst_8_apply, val_main_v36_apply, val_main_v34_apply, val_main_v32_apply, ec, val_main_v35_apply,
    val_main_v33_apply, ed, val_main_v31_apply, val_main_v30_apply, val_main_v29_apply, val_main_cst_7_apply,
    val_main_v28_apply, val_main_v26_apply, val_main_v24_apply, ea, val_main_v27_apply, val_main_v25_apply, eb,
    sqf_apply, sqp_apply, totf_apply, totp_apply, dot_apply]
  simp only [Ideal.hostUnary_sqrt_def, Ideal.maximumf_def, Ideal.mulf_def, Ideal.addf_def, Ideal.subf_def,
    Ideal.ofBits_def]
  rfl

end Cert.ReferenceIdeal.RefDist

end
-- ==== Proof.RefGather.lean ====
/-
  Two host operations of the reference read at an index by hand: the gather that picks, in each row of the distance
  matrix, the column its start index names (the start index read signed and clamped into the row), and the reduction
  by "and" over an axis of one entry, which returns that entry.
-/
import proofs.«402777_j61521111548487_3_alg».proof.Proof.Gen.ReferenceIdeal
import Idealize.ShloMosaic.Lib.Pipeline.Value
import Idealize.ShloMosaic.Lib.ValueIdx
import Idealize.ShloMosaic.Lib.ReduceAll

noncomputable section

namespace Cert.ReferenceIdeal.RefGather

open Idealize.ShloMosaic Idealize.ShloMosaic.ValueIdx Cert.ReferenceIdeal Cert.ReferenceIdeal.Gen

/-- The row gather's dimension numbers. -/
abbrev rowDims : GatherDims S262144x100 S262144x1x1 S262144x1 := gather_S262144x100_S262144x1x1_S262144x1_n_1_0_0_1_2_11

theorem zero_mem_ob : (0 : Fin S262144x100.rank) ∈ rowDims.operandBatchingDims := List.mem_singleton.mpr rfl
theorem one_not_mem_ob : (1 : Fin S262144x100.rank) ∉ rowDims.operandBatchingDims := by
  show (1 : Fin 2) ∉ [(0 : Fin 2)]; decide
theorem one_mem_cs : (1 : Fin S262144x100.rank) ∈ rowDims.collapsedSliceDims := List.mem_singleton.mpr rfl
theorem one_mem_sim : (1 : Fin S262144x100.rank) ∈ rowDims.startIndexMap := List.mem_singleton.mpr rfl

/-- On the batching axis the operand coordinate is the row. -/
theorem coord0 (idx : IVec S262144x1x1 32) (b : Fin 262144) :
    rowDims.start (ix2 b (0 : Fin 1)) idx 0 + rowDims.batchCoord (ix2 b (0 : Fin 1)) 0 + rowDims.offCoord (ix2 b (0 : Fin 1)) 0 = b.val := by
  rw [rowDims.start_batching _ _ _ zero_mem_ob,
    rowDims.offCoord_eq_zero _ _ (fun h => ((rowDims.mem_sKept _).mp h).2 zero_mem_ob)]
  simp only [Nat.zero_add, Nat.add_zero]
  unfold GatherDims.batchCoord
  rw [dif_pos zero_mem_ob]
  rfl

/-- On the collapsed axis the operand coordinate is the row's start index, read signed and clamped into the row. -/
theorem coord1 (idx : IVec S262144x1x1 32) (b : Fin 262144) :
    rowDims.start (ix2 b (0 : Fin 1)) idx 1 + rowDims.batchCoord (ix2 b (0 : Fin 1)) 1 + rowDims.offCoord (ix2 b (0 : Fin 1)) 1
      = min (idx (ix3 b (0 : Fin 1) (0 : Fin 1))).toInt.toNat 99 := by
  rw [rowDims.batchCoord_eq_zero _ _ one_not_mem_ob,
    rowDims.offCoord_eq_zero _ _ (fun h => ((rowDims.mem_sKept _).mp h).1 one_mem_cs)]
  simp only [Nat.add_zero]
  unfold GatherDims.start
  rw [dif_pos one_mem_sim]
  have hsi : rowDims.siIdx (ix2 b (0 : Fin 1)) ⟨List.idxOf (1 : Fin S262144x100.rank) rowDims.startIndexMap,
      List.idxOf_lt_length_iff.2 one_mem_sim⟩ = ix3 b (0 : Fin 1) (0 : Fin 1) := by
    funext c; refine Fin.ext ?_
    match c with
    | ⟨0, _⟩ => rfl
    | ⟨1, _⟩ => rfl
    | ⟨2, _⟩ => rfl
  rw [hsi]
  rfl

/-- The row gather read at row `b`: the operand at `(b, the start index of row b read signed, clamped to 0 … 99)`. -/
theorem gather_apply {α : Type} (x : S262144x100.Idx → α) (idx : IVec S262144x1x1 32) (b : Fin 262144) :
    Host.gather gather_S262144x100_S262144x1x1_S262144x1_n_1_0_0_1_2_11 x idx (ix2 b (0 : Fin 1))
      = x (ix2 b (⟨min (idx (ix3 b (0 : Fin 1) (0 : Fin 1))).toInt.toNat 99, by omega⟩ : Fin 100)) := by
  unfold Host.gather
  congr 1
  funext a
  refine Fin.ext ?_
  match a with
  | ⟨0, _⟩ => exact coord0 idx b
  | ⟨1, _⟩ => exact coord1 idx b

/-- "And" with `1` on a one-bit word is the word. -/
theorem andi_one (x : BitVec 1) : IntOp.andi x 1#1 = x := by revert x; decide

/-- A fold over the one coordinate of an axis of extent `1` combines that entry with the initial value. -/
theorem fold_fin_one {β : Type} (f : β → β → β) [Std.Commutative f] [Std.Associative f] (init : β) (g : Fin 1 → β) :
    (Finset.univ : Finset (Fin 1)).fold f init g = f (g 0) init := by
  rw [Finset.univ_unique, Finset.fold_singleton]; rfl

/-- The "and" over the last axis, of one entry, started from `1`, is the entry. -/
theorem reduce_and_apply (v : IVec S262144x1x1 1) (b : Fin 262144) :
    Host.reduce IntOp.andi v (constantI S_ 1 1#1) reducesTo_S262144x1x1_S262144x1_d2 h_S_ (ix2 b (0 : Fin 1))
      = v (ix3 b (0 : Fin 1) (0 : Fin 1)) := by
  have hR : S262144x1x1.Reduces [2] S262144x1 := by decide
  rw [Host.reduce_eq_fold_single IntOp.andi v _ reducesTo_S262144x1x1_S262144x1_d2 hR h_S_]
  refine (fold_fin_one IntOp.andi 1#1 (fun k => v (hR.lift (ix2 b (0 : Fin 1)) k))).trans ?_
  rw [andi_one]
  refine congrArg v (funext fun c => Fin.ext ?_)
  match c with
  | ⟨0, _⟩ => rfl
  | ⟨1, _⟩ => rfl
  | ⟨2, _⟩ => rfl

end Cert.ReferenceIdeal.RefGather

end
-- ==== Proof.RefValue.lean ====
/-
  The reference program's result, read off its operations one at a time from the matrix of distances on, is the second
  form of the batch loss: the label's distance gathered at the wrapped and clamped label (the fill where the label is
  no class), the hinge of the classes other than the label summed and divided by `99`, and the rows' mean.
-/
import proofs.«402777_j61521111548487_3_alg».proof.Proof.RefRead
import proofs.«402777_j61521111548487_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP

/-! ## A sum over a rank-1 index set -/

/-- A rank-1 index set is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The label column, wrapped, tested and gathered -/

/-- The labels as a column: row `b` holds label `b`. -/
theorem label_col (x2 : (⟨S262144, .i32⟩ : BufTy).Contents (Elt Ideal)) (b : Fin 262144) :
    val_main_v45 (F := Ideal) x2 (ix2 b (0 : Fin 1)) = Cert.Spec.ents x2 b := by
  rw [val_main_v45_apply]
  exact congrArg x2 (funext fun a => by match a with | ⟨0, _⟩ => rfl)

/-- A negative label gets `100` added: the column of wrapped labels. -/
theorem wrapped_col (x2 : (⟨S262144, .i32⟩ : BufTy).Contents (Elt Ideal)) (b : Fin 262144) :
    val_main_call0_v4 (F := Ideal) x2 (ix2 b (0 : Fin 1)) = Cert.Spec.wrapLabel (Cert.Spec.ents x2 b) := by
  rw [val_main_call0_v4_apply, val_main_call0_v1_apply, val_main_call0_v3_apply, val_main_call0_v0_apply,
    val_main_call0_v2_apply, val_main_call0_c_apply, val_main_call0_c_0_apply, label_col]
  rfl

/-- The same column with one more axis of one entry. -/
theorem wrapped (x2 : (⟨S262144, .i32⟩ : BufTy).Contents (Elt Ideal)) (b : Fin 262144) :
    val_main_call0_v5 (F := Ideal) x2 (ix3 b (0 : Fin 1) (0 : Fin 1)) = Cert.Spec.wrapLabel (Cert.Spec.ents x2 b) := by
  rw [val_main_call0_v5_apply, ← wrapped_col]
  refine congrArg (val_main_call0_v4 (F := Ideal) x2) (funext fun a => Fin.ext ?_)
  match a with
  | ⟨0, _⟩ => show ((b.val * 1 + 0) * 1 + 0) / 1 = b.val; omega
  | ⟨1, _⟩ => rfl

/-- The in-range test of the wrapped label, after the "and" over its one-entry axis. -/
theorem inb
    (hreduce : ∀ (v : IVec S262144x1x1 1) (b : Fin 262144),
      Host.reduce IntOp.andi v (constantI S_ 1 1#1) reducesTo_S262144x1x1_S262144x1_d2 h_S_ (ix2 b (0 : Fin 1))
        = v (ix3 b (0 : Fin 1) (0 : Fin 1)))
    (x2 : (⟨S262144, .i32⟩ : BufTy).Contents (Elt Ideal)) (b : Fin 262144) :
    val_main_call0_v12 (F := Ideal) x2 (ix2 b (0 : Fin 1)) = Cert.Spec.inbLabel (Cert.Spec.ents x2 b) := by
  unfold val_main_call0_v12 val_main_call0_c_3
  rw [hreduce, val_main_call0_v11_apply, val_main_call0_v7_apply, val_main_call0_v10_apply, val_main_call0_v6_apply,
    val_main_call0_v9_apply, val_main_call0_v8_apply, val_main_call0_c_2_apply, val_main_call0_c_1_apply, wrapped]
  rfl

/-- The label's distance: the row of distances read at the wrapped, clamped label where the label is a class, the
    fill elsewhere. -/
theorem dpos
    (hdist : ∀ (x0 : (⟨S262144x128, .f32⟩ : BufTy).Contents (Elt Ideal)) (x1 : (⟨S100x128, .f32⟩ : BufTy).Contents (Elt Ideal))
      (b : Fin 262144) (c : Fin 100),
      val_main_v44 (F := Ideal) x0 x1 (ix2 b c) = Cert.Spec.distR (Cert.Spec.rows x0 b) (Cert.Spec.rows x1 c))
    (hgather : ∀ (x : S262144x100.Idx → EReal) (idx : IVec S262144x1x1 32) (b : Fin 262144),
      Host.gather gather_S262144x100_S262144x1x1_S262144x1_n_1_0_0_1_2_11 x idx (ix2 b (0 : Fin 1))
        = x (ix2 b (⟨min (idx (ix3 b (0 : Fin 1) (0 : Fin 1))).toInt.toNat 99, by omega⟩ : Fin 100)))
    (hreduce : ∀ (v : IVec S262144x1x1 1) (b : Fin 262144),
      Host.reduce IntOp.andi v (constantI S_ 1 1#1) reducesTo_S262144x1x1_S262144x1_d2 h_S_ (ix2 b (0 : Fin 1))
        = v (ix3 b (0 : Fin 1) (0 : Fin 1)))
    (x0 : (⟨S262144x128, .f32⟩ : BufTy).Contents (Elt Ideal)) (x1 : (⟨S100x128, .f32⟩ : BufTy).Contents (Elt Ideal))
    (x2 : (⟨S262144, .i32⟩ : BufTy).Contents (Elt Ideal)) (b : Fin 262144) :
    val_main_v46 (F := Ideal) x0 x1 x2 (ix2 b (0 : Fin 1))
      = Scalar.select (Cert.Spec.inbLabel (Cert.Spec.ents x2 b))
          (Cert.Spec.distR (Cert.Spec.rows x0 b) (Cert.Spec.rows x1 (Cert.Spec.colLabel (Cert.Spec.ents x2 b))))
          Cert.Spec.FILL := by
  have hc : (⟨min (val_main_call0_v5 (F := Ideal) x2 (ix3 b (0 : Fin 1) (0 : Fin 1))).toInt.toNat 99, by omega⟩ : Fin 100)
      = Cert.Spec.colLabel (Cert.Spec.ents x2 b) := by
    refine Fin.ext ?_
    show min (val_main_call0_v5 (F := Ideal) x2 (ix3 b (0 : Fin 1) (0 : Fin 1))).toInt.toNat 99
      = min (Cert.Spec.wrapLabel (Cert.Spec.ents x2 b)).toInt.toNat 99
    rw [wrapped]
  rw [val_main_v46_apply, inb hreduce, val_main_call0_v14_apply, val_main_call0_cst_apply]
  unfold val_main_call0_v13
  rw [hgather, hdist, hc]
  rfl

/-! ## The hinge, masked, summed over the classes and averaged over the batch -/

/-- The hinge of the label's distance against class `c`'s, kept where `c` is not the label. -/
theorem masked
    (hdist : ∀ (x0 : (⟨S262144x128, .f32⟩ : BufTy).Contents (Elt Ideal)) (x1 : (⟨S100x128, .f32⟩ : BufTy).Contents (Elt Ideal))
      (b : Fin 262144) (c : Fin 100),
      val_main_v44 (F := Ideal) x0 x1 (ix2 b c) = Cert.Spec.distR (Cert.Spec.rows x0 b) (Cert.Spec.rows x1 c))
    (hgather : ∀ (x : S262144x100.Idx → EReal) (idx : IVec S262144x1x1 32) (b : Fin 262144),
      Host.gather gather_S262144x100_S262144x1x1_S262144x1_n_1_0_0_1_2_11 x idx (ix2 b (0 : Fin 1))
        = x (ix2 b (⟨min (idx (ix3 b (0 : Fin 1) (0 : Fin 1))).toInt.toNat 99, by omega⟩ : Fin 100)))
    (hreduce : ∀ (v : IVec S262144x1x1 1) (b : Fin 262144),
      Host.reduce IntOp.andi v (constantI S_ 1 1#1) reducesTo_S262144x1x1_S262144x1_d2 h_S_ (ix2 b (0 : Fin 1))
        = v (ix3 b (0 : Fin 1) (0 : Fin 1)))
    (x0 : (⟨S262144x128, .f32⟩ : BufTy).Contents (Elt Ideal)) (x1 : (⟨S100x128, .f32⟩ : BufTy).Contents (Elt Ideal))
    (x2 : (⟨S262144, .i32⟩ : BufTy).Contents (Elt Ideal)) (b : Fin 262144) (c : Fin 100) :
    val_main_v58 (F := Ideal) x0 x1 x2 (ix2 b c)
      = Scalar.select (IntOp.cmpi .ne (BitVec.ofNat 32 c.val) (Cert.Spec.ents x2 b))
          (max ((Scalar.select (Cert.Spec.inbLabel (Cert.Spec.ents x2 b))
              (Cert.Spec.distR (Cert.Spec.rows x0 b) (Cert.Spec.rows x1 (Cert.Spec.colLabel (Cert.Spec.ents x2 b))))
              Cert.Spec.FILL - Cert.Spec.distR (Cert.Spec.rows x0 b) (Cert.Spec.rows x1 c)) + Cert.Spec.HALF) 0) 0 := by
  have h47 : idx_main_v47 (ix2 b c) = ix2 b (0 : Fin 1) :=
    funext fun a => by match a with | ⟨0, _⟩ => rfl | ⟨1, _⟩ => rfl
  have h56 : x2 (idx_main_v54 (idx_main_v56 (ix2 b c))) = Cert.Spec.ents x2 b :=
    congrArg x2 (funext fun a => by match a with | ⟨0, _⟩ => rfl)
  rw [val_main_v58_apply, val_main_v57_apply, val_main_v55_apply, val_main_v53_apply, val_main_v52_apply,
    val_main_v56_apply, val_main_v54_apply, h56, val_main_v51_apply, val_main_v50_apply, val_main_v48_apply,
    val_main_v47_apply, h47, dpos hdist hgather hreduce, hdist, val_main_v49_apply, val_main_cst_11_apply,
    val_main_call1_v0_apply, val_main_call1_cst_apply, val_main_call2_v1_apply, val_main_call2_v0_apply,
    val_main_cst_12_apply]
  simp only [Ideal.maximumf_def, Ideal.addf_def, Ideal.subf_def, Ideal.ofBits_def, Ideal.ofBits_zero_f32]

/-- A row's loss: the masked hinges summed over the classes, over `99`. -/
theorem row
    (hdist : ∀ (x0 : (⟨S262144x128, .f32⟩ : BufTy).Contents (Elt Ideal)) (x1 : (⟨S100x128, .f32⟩ : BufTy).Contents (Elt Ideal))
      (b : Fin 262144) (c : Fin 100),
      val_main_v44 (F := Ideal) x0 x1 (ix2 b c) = Cert.Spec.distR (Cert.Spec.rows x0 b) (Cert.Spec.rows x1 c))
    (hgather : ∀ (x : S262144x100.Idx → EReal) (idx : IVec S262144x1x1 32) (b : Fin 262144),
      Host.gather gather_S262144x100_S262144x1x1_S262144x1_n_1_0_0_1_2_11 x idx (ix2 b (0 : Fin 1))
        = x (ix2 b (⟨min (idx (ix3 b (0 : Fin 1) (0 : Fin 1))).toInt.toNat 99, by omega⟩ : Fin 100)))
    (hreduce : ∀ (v : IVec S262144x1x1 1) (b : Fin 262144),
      Host.reduce IntOp.andi v (constantI S_ 1 1#1) reducesTo_S262144x1x1_S262144x1_d2 h_S_ (ix2 b (0 : Fin 1))
        = v (ix3 b (0 : Fin 1) (0 : Fin 1)))
    (x0 : (⟨S262144x128, .f32⟩ : BufTy).Contents (Elt Ideal)) (x1 : (⟨S100x128, .f32⟩ : BufTy).Contents (Elt Ideal))
    (x2 : (⟨S262144, .i32⟩ : BufTy).Contents (Elt Ideal)) (b : Fin 262144) :
    val_main_v61 (F := Ideal) x0 x1 x2 (ix1 b)
      = Cert.Spec.rowR (Cert.Spec.rows x0 b) (Cert.Spec.rows x1) (Cert.Spec.ents x2 b) := by
  rw [val_main_v61_apply, val_main_v59_apply, val_main_v60_apply, val_main_cst_14_apply, val_main_cst_13_apply]
  simp only [Ideal.hostDivf_def, Ideal.ofBits_def, Ideal.ofBits_zero_f32, zero_add]
  unfold Cert.Spec.rowR Cert.Spec.rowOfDistR
  refine congrArg (fun s => Ideal.div s Cert.Spec.C99) (Finset.sum_congr rfl fun k _ => ?_)
  have hk : idx_main_v59 (ix1 b) k = ix2 b k :=
    funext fun a => by match a with | ⟨0, _⟩ => rfl | ⟨1, _⟩ => rfl
  rw [hk, masked hdist hgather hreduce]

/-- Given the distance matrix's entries (`hdist`), the row gather read at a row (`hgather`) and the "and" over a
    one-entry axis (`hreduce`), the reference's result is the batch loss in its second form, of the arguments' rows and
    label words. -/
theorem ref_is_GR
    (hdist : ∀ (x0 : (⟨S262144x128, .f32⟩ : BufTy).Contents (Elt Ideal)) (x1 : (⟨S100x128, .f32⟩ : BufTy).Contents (Elt Ideal))
      (b : Fin 262144) (c : Fin 100),
      val_main_v44 (F := Ideal) x0 x1 (ix2 b c) = Cert.Spec.distR (Cert.Spec.rows x0 b) (Cert.Spec.rows x1 c))
    (hgather : ∀ (x : S262144x100.Idx → EReal) (idx : IVec S262144x1x1 32) (b : Fin 262144),
      Host.gather gather_S262144x100_S262144x1x1_S262144x1_n_1_0_0_1_2_11 x idx (ix2 b (0 : Fin 1))
        = x (ix2 b (⟨min (idx (ix3 b (0 : Fin 1) (0 : Fin 1))).toInt.toNat 99, by omega⟩ : Fin 100)))
    (hreduce : ∀ (v : IVec S262144x1x1 1) (b : Fin 262144),
      Host.reduce IntOp.andi v (constantI S_ 1 1#1) reducesTo_S262144x1x1_S262144x1_d2 h_S_ (ix2 b (0 : Fin 1))
        = v (ix3 b (0 : Fin 1) (0 : Fin 1)))
    (x0 : (⟨S262144x128, .f32⟩ : BufTy).Contents (Elt Ideal)) (x1 : (⟨S100x128, .f32⟩ : BufTy).Contents (Elt Ideal))
    (x2 : (⟨S262144, .i32⟩ : BufTy).Contents (Elt Ideal)) :
    val_main_v63 (F := Ideal) x0 x1 x2 = fun _ => Cert.Spec.GR (Cert.Spec.rows x0) (Cert.Spec.rows x1) (Cert.Spec.ents x2) := by
  funext i
  rw [val_main_v63_apply, val_main_v62_apply, val_main_cst_15_apply, val_main_cst_16_apply]
  simp only [Ideal.hostDivf_def, Ideal.ofBits_def, Ideal.ofBits_zero_f32, zero_add]
  rw [sum_idx1]
  unfold Cert.Spec.GR
  refine congrArg (fun s => Ideal.div s Cert.Spec.NB) (Finset.sum_congr rfl fun b _ => ?_)
  exact row hdist hgather hreduce x0 x1 x2 b

end Cert.ReferenceIdeal.RefValue

end
-- ==== Proof.KRun.lean ====
/-
  What the kernel's accumulator holds after each grid point, and what the launch leaves in the result array.

  A grid point is a pair (core, step): core `t / 16`, step `t % 16`. At step 0 the accumulator is reset to zero and the
  tile's summed loss added; at every later step the tile's loss is added to what the step before left; at step 15 the
  accumulator is copied to the core's entry of the result array. So after point `t` the accumulator holds the sum of the
  tiles' losses over the points of its core up to `t`, and the result array's entry for a core is the sum over the
  core's sixteen tiles.
-/
import proofs.«402777_j61521111548487_3_alg».proof.Proof.Gen.KernelIdeal.Frame
import proofs.«402777_j61521111548487_3_alg».proof.Proof.Spec
import Idealize.ShloMosaic.Lib.Pipeline.Value
import Idealize.ShloMosaic.Lib.Tactic

set_option maxRecDepth 16384

noncomputable section

namespace Cert.KernelIdeal.KRun

open Idealize.ShloMosaic Idealize.ShloMosaic.TcCoe Idealize.SL.Sem Idealize.ShloMosaic.Tactic
open Cert.KernelIdeal Cert.KernelIdeal.Gen
open Idealize.ShloMosaic.Pipeline (Dat)

section Pieces
variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step leaves in the accumulator the update of what it found there. -/
theorem sout_B (c : Dev nD) (i : grid0.Coords) (arg2 : Memref sig .tc .vmem S8192x128 .f32) (harg2 : arg2.IsWhole) (arg3 : Memref sig .tc .vmem S100x128 .f32) (harg3 : arg3.IsWhole) (arg4 : Memref sig .tc .vmem S1x100 .f32) (harg4 : arg4.IsWhole) (arg5 : Memref sig .tc .vmem S1x100 .i32) (harg5 : arg5.IsWhole) (arg6 : Memref sig .tc .vmem S8192x1 .i32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : ¬cond0_1 i) (x0 : Vec F S8192x128 .f32) (x1 : Vec F S100x128 .f32) (x2 : Vec F S1x100 .f32) (x3 : Vec F S1x100 .i32) (x4 : Vec F S8192x1 .i32) (xs0 : Vec F S1x1x1 .f32) :
    sout0_B_0 c i arg2 harg2 arg3 harg3 arg4 harg4 arg5 harg5 arg6 harg6 arg7 harg7 arg8 harg8 hc0 hc1 x0 x1 x2 x3 x4 xs0 = k0_pay1 (k0_pay3 x0 x1 x2) (k0_pay4 x4) x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz3]
  simp only [View.readAt_eq_ld, harg2.read_unread, harg3.read_unread, harg4.read_unread, harg5.read_unread, harg6.read_unread,
    harg8.read_unread, View.ld_unit_zero (S := S8192x128) hz2, View.ld_unit_zero (S := S100x128) hz2,
    View.ld_unit_zero (S := S1x100) hz2, View.ld_unit_zero (S := S8192x1) hz2, View.ld_unit_zero (S := S1x1x1) hz3]

/-- The last step of a core leaves the same in the accumulator … -/
theorem sout_C (c : Dev nD) (i : grid0.Coords) (arg2 : Memref sig .tc .vmem S8192x128 .f32) (harg2 : arg2.IsWhole) (arg3 : Memref sig .tc .vmem S100x128 .f32) (harg3 : arg3.IsWhole) (arg4 : Memref sig .tc .vmem S1x100 .f32) (harg4 : arg4.IsWhole) (arg5 : Memref sig .tc .vmem S1x100 .i32) (harg5 : arg5.IsWhole) (arg6 : Memref sig .tc .vmem S8192x1 .i32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : cond0_1 i) (x0 : Vec F S8192x128 .f32) (x1 : Vec F S100x128 .f32) (x2 : Vec F S1x100 .f32) (x3 : Vec F S1x100 .i32) (x4 : Vec F S8192x1 .i32) (xs0 : Vec F S1x1x1 .f32) :
    sout0_C_0 c i arg2 harg2 arg3 harg3 arg4 harg4 arg5 harg5 arg6 harg6 arg7 harg7 arg8 harg8 hc0 hc1 x0 x1 x2 x3 x4 xs0 = k0_pay1 (k0_pay3 x0 x1 x2) (k0_pay4 x4) x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3]
  simp only [View.readAt_eq_ld, harg2.read_unread, harg3.read_unread, harg4.read_unread, harg5.read_unread, harg6.read_unread,
    harg8.read_unread, View.ld_unit_zero (S := S8192x128) hz2, View.ld_unit_zero (S := S100x128) hz2,
    View.ld_unit_zero (S := S1x100) hz2, View.ld_unit_zero (S := S8192x1) hz2, View.ld_unit_zero (S := S1x1x1) hz3]

/-- … and copies it to the output block. -/
theorem out_C (c : Dev nD) (i : grid0.Coords) (arg2 : Memref sig .tc .vmem S8192x128 .f32) (harg2 : arg2.IsWhole) (arg3 : Memref sig .tc .vmem S100x128 .f32) (harg3 : arg3.IsWhole) (arg4 : Memref sig .tc .vmem S1x100 .f32) (harg4 : arg4.IsWhole) (arg5 : Memref sig .tc .vmem S1x100 .i32) (harg5 : arg5.IsWhole) (arg6 : Memref sig .tc .vmem S8192x1 .i32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : cond0_1 i) (x0 : Vec F S8192x128 .f32) (x1 : Vec F S100x128 .f32) (x2 : Vec F S1x100 .f32) (x3 : Vec F S1x100 .i32) (x4 : Vec F S8192x1 .i32) (xs0 : Vec F S1x1x1 .f32) :
    out0_C_5 c i arg2 harg2 arg3 harg3 arg4 harg4 arg5 harg5 arg6 harg6 arg7 harg7 arg8 harg8 hc0 hc1 x0 x1 x2 x3 x4 xs0 = k0_pay1 (k0_pay3 x0 x1 x2) (k0_pay4 x4) x3 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg5.read_unread, harg6.read_unread,
    harg8.read_unread, View.ld_unit_zero (S := S8192x128) hz2, View.ld_unit_zero (S := S100x128) hz2,
    View.ld_unit_zero (S := S1x100) hz2, View.ld_unit_zero (S := S8192x1) hz2, View.ld_unit_zero (S := S1x1x1) hz3]

/-- The first step of a core leaves the update of the reset value. -/
theorem sout_A (c : Dev nD) (i : grid0.Coords) (arg2 : Memref sig .tc .vmem S8192x128 .f32) (harg2 : arg2.IsWhole) (arg3 : Memref sig .tc .vmem S100x128 .f32) (harg3 : arg3.IsWhole) (arg4 : Memref sig .tc .vmem S1x100 .f32) (harg4 : arg4.IsWhole) (arg5 : Memref sig .tc .vmem S1x100 .i32) (harg5 : arg5.IsWhole) (arg6 : Memref sig .tc .vmem S8192x1 .i32) (harg6 : arg6.IsWhole) (arg7 : Memref sig .tc .vmem S1x1x1 .f32) (harg7 : arg7.IsWhole) (arg8 : Memref sig .tc .vmem S1x1x1 .f32) (harg8 : arg8.IsWhole) (hc0 : cond0_0 i) (hc1 : ¬cond0_1 i) (x0 : Vec F S8192x128 .f32) (x1 : Vec F S100x128 .f32) (x2 : Vec F S1x100 .f32) (x3 : Vec F S1x100 .i32) (x4 : Vec F S8192x1 .i32) :
    sout0_A_0 c i arg2 harg2 arg3 harg3 arg4 harg4 arg5 harg5 arg6 harg6 arg7 harg7 arg8 harg8 hc0 hc1 x0 x1 x2 x3 x4 = k0_pay1 (k0_pay3 x0 x1 x2) (k0_pay4 x4) x3 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread,
    View.ld_unit_zero (S := S8192x128) hz2, View.ld_unit_zero (S := S100x128) hz2,
    View.ld_unit_zero (S := S1x100) hz2, View.ld_unit_zero (S := S8192x1) hz2]

end Pieces

section Steps

variable (m : (ℓ : Loc nD τ sig) → Buf (Elt Ideal) ℓ)

/-- The input blocks at a point, each at its literal type: the tile's feature rows, the unit prototype rows, the
    prototypes' parts of the squared distance, the row of class words, the tile's label column. -/
abbrev xblk (c : Dev nD) (t : Fin cfg0.N) : Vec Ideal S8192x128 .f32 := iblk m c 0 t
abbrev pblk (c : Dev nD) (t : Fin cfg0.N) : Vec Ideal S100x128 .f32 := iblk m c 1 t
abbrev bblk (c : Dev nD) (t : Fin cfg0.N) : Vec Ideal S1x100 .f32 := iblk m c 2 t
abbrev cblk (c : Dev nD) (t : Fin cfg0.N) : Vec Ideal S1x100 .i32 := iblk m c 3 t
abbrev lblk (c : Dev nD) (t : Fin cfg0.N) : Vec Ideal S8192x1 .i32 := iblk m c 4 t

/-- A point's update of the accumulator: the accumulator plus the tile's summed loss. -/
def upd (c : Dev nD) (t : Fin cfg0.N) (acc : Vec Ideal S1x1x1 .f32) : Vec Ideal S1x1x1 .f32 :=
  k0_pay1 (F := Ideal) (k0_pay3 (F := Ideal) (xblk m c t) (pblk m c t) (bblk m c t)) (k0_pay4 (F := Ideal) (lblk m c t)) (cblk m c t) acc

/-- At a core's first step the accumulator ends at the update of the reset value. -/
theorem scr_zero (c : Dev nD) (t : Fin cfg0.N) (h0 : t.val % 16 = 0) :
    (outsAt0 m c t.val t.isLt).2 = upd m c t (k0_pay2 (F := Ideal)) := by
  have h1 : ¬t.val % 16 = 15 := by omega
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At every later step it ends at the update of what the step before left. -/
theorem scr_succ (c : Dev nD) (t : Fin cfg0.N) (h0 : ¬t.val % 16 = 0) :
    (outsAt0 m c t.val t.isLt).2 = upd m c t (outsAt0 m c (t.val - 1) (Nat.lt_of_le_of_lt (Nat.sub_le _ _) t.isLt)).2 := by
  by_cases h1 : t.val % 16 = 15
  · rw [outsAt0_C m c t h0 h1]
    dsimp only
    exact sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- At a core's last step the output block is the accumulator. -/
theorem out_last (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).symm

end Steps

section Final

variable (m : (ℓ : Loc nD τ sig) → Buf (Elt Ideal) ℓ)

/-- The output window's block index at a point: the point's core on the first axis. -/
theorem idx5 : ∀ t : Fin cfg0.N, win0_5.index t (0 : Fin 3) = t.val / 16 ∧ win0_5.index t (1 : Fin 3) = 0
    ∧ win0_5.index t (2 : Fin 3) = 0 :=
  (by decide +kernel : ∀ t : Fin grid0.N, _)

theorem N32 : cfg0.N = 32 := N_0

/-- The one index of a one-entry block. -/
theorem idx111_zero (j : S1x1x1.Idx) (a : Fin 3) : (j a).val = 0 := by
  match a with
  | ⟨0, h⟩ => exact Nat.lt_one_iff.mp (j ⟨0, h⟩).isLt
  | ⟨1, h⟩ => exact Nat.lt_one_iff.mp (j ⟨1, h⟩).isLt
  | ⟨2, h⟩ => exact Nat.lt_one_iff.mp (j ⟨2, h⟩).isLt
theorem idx111_eq (j : S1x1x1.Idx) : j = ValueIdx.ix3 (0 : Fin 1) (0 : Fin 1) (0 : Fin 1) := by
  funext a; apply Fin.ext
  match a with
  | ⟨0, _⟩ => exact idx111_zero j 0
  | ⟨1, _⟩ => exact idx111_zero j 1
  | ⟨2, _⟩ => exact idx111_zero j 2

/-- The accumulator's contents after a point do not depend on how the point's bound is proved. -/
theorem outsAt_congr (c : Dev nD) (n n' : ℕ) (h : n = n') (hn : n < cfg0.N) (hn' : n' < cfg0.N) :
    outsAt0 m c n hn = outsAt0 m c n' hn' := by subst h; rfl

/-- The result array after the launch: a core's entry is the accumulator after the core's last step. -/
def outArr (c : Dev nD) : S2x1x1.Idx → EReal := fun i =>
  (outsAt0 m c (16 * (i 0).val + 15) (by have h2 : (i 0).val < 2 := (i 0).isLt; have hN : cfg0.N = 32 := N_0; omega)).2
    (ValueIdx.ix3 (0 : Fin 1) (0 : Fin 1) (0 : Fin 1))

/-- What a core's last step writes back is the core's block of it. -/
theorem flushed5_eq (c : Dev nD) (t : Fin cfg0.N) (hf : (cfg0.win 5).flush t = true) :
    (dats m 0 c).flushed 5 t = ((cfg0.win 5).blk t).view.read (Elt Ideal) (outArr m c) := by
  have h15 : t.val % 16 = 15 := (flush0_5 t).mp hf
  show (cfg0.win 5).cut (grid0.coords t) ((dats m 0 c).after 5 t) = _
  rw [after0_5, out_last m c t h15]
  obtain ⟨e0, e1, e2⟩ := idx5 t
  funext j
  show (outsAt0 m c t.val t.isLt).2 j = outArr m c (((cfg0.win 5).blk t).view.emb j)
  have hj : (j : S1x1x1.Idx) = ValueIdx.ix3 (0 : Fin 1) (0 : Fin 1) (0 : Fin 1) := idx111_eq j
  have hemb : ((((cfg0.win 5).blk t).view.emb j) 0).val = t.val / 16 := by
    show win0_5.index t (0 : Fin 3) * 1 + 1 * ((j : S1x1x1.Idx) 0).val = _
    rw [idx111_zero j 0]
    omega
  unfold outArr
  rw [outsAt_congr m c (16 * ((((cfg0.win 5).blk t).view.emb j) 0).val + 15) t.val (by rw [hemb]; omega) _ t.isLt]
  exact congrArg (outsAt0 m c t.val t.isLt).2 hj

/-- An index of the result array is in a point's block iff each coordinate is in the block's range. -/
theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v20).slice (win0_5.rect t)).set ↔ _
  rw [View.set_slice_whole, Rect.mem_set_unit]
  exact Iff.rfl

/-- So the result array ends holding, for each core, the accumulator after its last step. -/
theorem final5 (c : Dev nD) : (dats m 0 c).arrAt 5 cfg0.N = outArr m c :=
  (dats m 0 c).arrAt_eq_of_cover 5 (outArr m c) (flushed5_eq m c) fun i => by
    have hi0 : (i 0).val < 2 := (i 0).isLt
    have hi1 : (i 1).val < 1 := (i 1).isLt
    have hi2 : (i 2).val < 1 := (i 2).isLt
    have hN : cfg0.N = 32 := N_0
    refine ⟨⟨16 * (i 0).val + 15, by omega⟩, (flush0_5 _).mpr (by show (16 * (i 0).val + 15) % 16 = 15; omega), ?_⟩
    rw [mem_blk5]
    obtain ⟨e0, e1, e2⟩ := idx5 ⟨16 * (i 0).val + 15, by omega⟩
    intro a
    match a with
    | ⟨0, _⟩ => show win0_5.index _ (0 : Fin 3) * 1 ≤ (i 0).val ∧ (i 0).val < win0_5.index _ (0 : Fin 3) * 1 + 1
                rw [e0]; show (16 * (i 0).val + 15) / 16 * 1 ≤ (i 0).val ∧ (i 0).val < (16 * (i 0).val + 15) / 16 * 1 + 1; omega
    | ⟨1, _⟩ => show win0_5.index _ (1 : Fin 3) * 1 ≤ (i 1).val ∧ (i 1).val < win0_5.index _ (1 : Fin 3) * 1 + 1
                rw [e1]; omega
    | ⟨2, _⟩ => show win0_5.index _ (2 : Fin 3) * 1 ≤ (i 2).val ∧ (i 2).val < win0_5.index _ (2 : Fin 3) * 1 + 1
                rw [e2]; omega

end Final

end Cert.KernelIdeal.KRun

end
-- ==== Proof.KPay.lean ====
/-
  What the kernel body computes at one grid point, read entry by entry on the extended reals: the block of distances
  between the tile's 8192 feature rows and the 100 unit prototype rows, and the tile's summed loss added to the carried
  accumulator.
-/
import proofs.«402777_j61521111548487_3_alg».proof.Proof.Gen.KernelIdeal.Skeleton
import proofs.«402777_j61521111548487_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.KPay

open Idealize.ShloMosaic Idealize.ShloMosaic.ValueIdx Cert.KernelIdeal Cert.KernelIdeal.Gen

/-! ## The layout operations of the body, read at explicit coordinates -/

section Layout
variable {α : Type}

/-- A vector of `a` entries cast to a column `[a, 1]` reads, at `(r, u)`, the entry `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast along the lanes to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The sums of the body, read at explicit coordinates -/

/-- A sum along the lanes of an `[a, b]` vector is, at row `r`, the sum of the row's `b` entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction (F := Ideal) .add [1] ⟨1, ![a]⟩ v 0x00000000#32 h hφ hacc (ix1 r) = ∑ k : Fin b, v (ix2 r k) := by
  refine (Ideal.multiReduction_add_single v 0x00000000#32 h hφ hacc (ix1 r)).trans ?_
  refine Finset.sum_congr rfl fun k _ => ?_
  exact congrArg v (funext fun d => Fin.ext (by match d with | ⟨0, _⟩ => rfl | ⟨1, _⟩ => rfl))

/-- A sum down the rows of a column `[a, 1]` is the sum of its `a` entries. -/
theorem colSum_apply {a : ℕ} (v : FVec Ideal ⟨2, ![a, 1]⟩ .f32) (h : Shape.Reduces ⟨2, ![a, 1]⟩ [0] ⟨1, ![1]⟩)
    (hφ : FKind.Formats .f32) (hacc : (0x00000000#32 : BitVec 32) = 0x00000000#32) (u : Fin 1) :
    multiReduction (F := Ideal) .add [0] ⟨1, ![1]⟩ v 0x00000000#32 h hφ hacc (ix1 u) = ∑ r : Fin a, v (ix2 r u) := by
  refine (Ideal.multiReduction_add_single v 0x00000000#32 h hφ hacc (ix1 u)).trans ?_
  refine Finset.sum_congr rfl fun k _ => ?_
  exact congrArg v (funext fun d => Fin.ext (by match d with | ⟨0, _⟩ => rfl | ⟨1, _⟩ => rfl))

/-! ## The contraction of the body, read at explicit coordinates -/

theorem lhs_dot_0 (i : S8192x100.Idx) (q : dot_S8192x128_S128x100_S8192x100_1_0_0_1_n_n.contr.Idx) :
    (dot_S8192x128_S128x100_S8192x100_1_0_0_1_n_n.lhsIdx i q 0).val = (i 0).val := by
  unfold DotDims.lhsIdx
  rw [dif_neg (show ¬(0 : Fin S8192x128.rank) ∈ dot_S8192x128_S128x100_S8192x100_1_0_0_1_n_n.lhsBatch by decide), dif_pos (show (0 : Fin S8192x128.rank) ∈ dot_S8192x128_S128x100_S8192x100_1_0_0_1_n_n.lhsNonContracting by decide)]
  rfl
theorem lhs_dot_1 (i : S8192x100.Idx) (q : dot_S8192x128_S128x100_S8192x100_1_0_0_1_n_n.contr.Idx) :
    (dot_S8192x128_S128x100_S8192x100_1_0_0_1_n_n.lhsIdx i q 1).val = (q ⟨0, by decide⟩).val :=
  dot_S8192x128_S128x100_S8192x100_1_0_0_1_n_n.lhsIdx_val_of_single rfl i q
theorem rhs_dot_0 (i : S8192x100.Idx) (q : dot_S8192x128_S128x100_S8192x100_1_0_0_1_n_n.contr.Idx) :
    (dot_S8192x128_S128x100_S8192x100_1_0_0_1_n_n.rhsIdx i q 0).val = (q ⟨0, by decide⟩).val :=
  dot_S8192x128_S128x100_S8192x100_1_0_0_1_n_n.rhsIdx_val_of_single rfl i q
theorem rhs_dot_1 (i : S8192x100.Idx) (q : dot_S8192x128_S128x100_S8192x100_1_0_0_1_n_n.contr.Idx) :
    (dot_S8192x128_S128x100_S8192x100_1_0_0_1_n_n.rhsIdx i q 1).val = (i 1).val := by
  unfold DotDims.rhsIdx
  rw [dif_neg (show ¬(1 : Fin S128x100.rank) ∈ dot_S8192x128_S128x100_S8192x100_1_0_0_1_n_n.rhsBatch by decide), dif_pos (show (1 : Fin S128x100.rank) ∈ dot_S8192x128_S128x100_S8192x100_1_0_0_1_n_n.rhsNonContracting by decide)]
  rfl

/-- The product of an `[8192, 128]` block with a `[128, 100]` block into the zero block is, at `(r, c)`, the sum over
    the 128 lanes of row `r` of the first times column `c` of the second. -/
theorem matmul_zero_apply (L : FVec Ideal S8192x128 .bf16) (R : FVec Ideal S128x100 .bf16) (r : Fin 8192) (c : Fin 100) :
    matmul (F := Ideal) dot_S8192x128_S128x100_S8192x100_1_0_0_1_n_n none L R (constant (F := Ideal) S8192x100 .f32 0x00000000#32) (ix2 r c)
      = ∑ k : Fin 128, L (ix2 r k) * R (ix2 k c) := by
  refine (Ideal.matmul_constant_zero_apply dot_S8192x128_S128x100_S8192x100_1_0_0_1_n_n none L R (ix2 r c)).trans ?_
  rw [← Equiv.sum_comp (ValueIdx.contrEquiv1 dot_S8192x128_S128x100_S8192x100_1_0_0_1_n_n 128 rfl rfl).symm]
  refine Finset.sum_congr rfl fun k _ => ?_
  have hk := ValueIdx.contrEquiv1_symm_val dot_S8192x128_S128x100_S8192x100_1_0_0_1_n_n 128 rfl rfl k
  have el : dot_S8192x128_S128x100_S8192x100_1_0_0_1_n_n.lhsIdx (ix2 r c) ((ValueIdx.contrEquiv1 dot_S8192x128_S128x100_S8192x100_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S8192x128_S128x100_S8192x100_1_0_0_1_n_n.rhsIdx (ix2 r c) ((ValueIdx.contrEquiv1 dot_S8192x128_S128x100_S8192x100_1_0_0_1_n_n 128 rfl rfl).symm k) = ix2 k c := funext fun a => Fin.ext (by
    match a with
    | ⟨0, _⟩ => exact (rhs_dot_0 _ _).trans hk
    | ⟨1, _⟩ => exact rhs_dot_1 _ _)
  rw [el, er]

/-! ## A square root, an integer comparison and a float word, read at an index -/

section Pointwise
variable {s : Shape} {φ : FTy}

/-- A square root at an index is the square root of the element. -/
theorem sqrt_apply (a : FVec Ideal s φ) (i : s.Idx) : sqrt a i = Ideal.sqrt (a i) := rfl
/-- An integer comparison at an index compares the elements. -/
theorem cmpi_apply {w : ℕ} (p : CmpIPredicate) (a b : IVec s w) (i : s.Idx) : cmpi p a b i = IntOp.cmpi p (a i) (b i) := rfl
/-- A float word at the extended reals is the extended real it encodes. -/
theorem scalar_ofBits (b : BitVec φ.bits) : Scalar.ofBits (F := Ideal) φ b = Ideal.ofBits φ b := rfl

end Pointwise

/-- The named reciprocal of the number of other classes is the rational `1/99`. -/
theorem inv_99 : Named.named (F := Ideal) Cert.KernelIdeal.κ "inv_99" (φ := .f32) 0x3C257EB5#32 = ((1 / 99 : ℝ) : EReal) :=
  IdealRules.named_const.ideal_named_scalar _ _ _ _ rfl

/-- The same product with the second block given by its transpose `[100, 128]`: at `(r, c)`, the sum over the 128 lanes
    of row `r` of the first times row `c` of the transposed block. -/
theorem matmul_protos_apply (L : FVec Ideal S8192x128 .bf16) (Q : FVec Ideal S100x128 .bf16) (r : Fin 8192) (c : Fin 100) :
    matmul (F := Ideal) dot_S8192x128_S128x100_S8192x100_1_0_0_1_n_n none L
        (transpose S128x100 [1, 0] Q transposes_S100x128_p1_0_S128x100) (constant (F := Ideal) S8192x100 .f32 0x00000000#32) (ix2 r c)
      = ∑ k : Fin 128, L (ix2 r k) * Q (ix2 c k) := by
  refine (matmul_zero_apply L _ r c).trans ?_
  refine Finset.sum_congr rfl fun k _ => ?_
  exact congrArg (L (ix2 r k) * ·) (transpose_ix2_apply Q _ k c)

/-- The distance block: entry `(r, c)` is the first-form distance of feature row `r` of the tile to the loaded unit
    prototype row `c` with the loaded prototype part `c`. -/
theorem pay3_apply (v3 : Vec Ideal S8192x128 .f32) (v20 : Vec Ideal S100x128 .f32) (v26 : Vec Ideal S1x100 .f32)
    (r : Fin 8192) (c : Fin 100) :
    k0_pay3 (F := Ideal) v3 v20 v26 (ix2 r c)
      = Cert.Spec.distOf (Cert.Spec.rows v3 r) (Cert.Spec.rows v20 c) (v26 (ix2 (0 : Fin 1) c)) := by
  unfold k0_pay3
  simp only [Cert.Spec.distOf, Cert.Spec.unit, Cert.Spec.sq, Cert.Spec.tot, Cert.Spec.dot, Cert.Spec.rows,
    sqrt_apply, maximumf_apply, addf_apply, subf_apply, mulf_apply, divf_apply, broadcast_apply, truncf_apply,
    broadcastTo_a1_ab_apply, broadcastTo_1b_ab_apply, shapeCast_a_a1_apply, shapeCast_self, scalar_ofBits]
  rw [matmul_protos_apply, laneSum_apply, laneSum_apply]
  simp only [sqrt_apply, maximumf_apply, addf_apply, subf_apply, mulf_apply, divf_apply, broadcast_apply, truncf_apply,
    broadcastTo_a1_ab_apply, broadcastTo_1b_ab_apply, shapeCast_a_a1_apply, shapeCast_self, scalar_ofBits]
  rw [laneSum_apply]
  simp only [mulf_apply]

/-- The accumulator's new value: its old value plus the sum over the tile's rows of the row loss, from the distance
    block `v36`, the tile's label column `v38` and the loaded row of class words `v39`. -/
theorem pay1_apply (v36 : FVec Ideal S8192x100 .f32) (v38 : IVec S8192x1 32) (v39 : Vec Ideal S1x100 .i32)
    (v62 : Vec Ideal S1x1x1 .f32) (y : S1x1x1.Idx) :
    k0_pay1 (F := Ideal) v36 v38 v39 v62 y
      = v62 y + ∑ r : Fin 8192, Cert.Spec.rowOfDist (fun c => v36 (ix2 r c)) (v38 (ix2 r (0 : Fin 1))) (fun c => v39 (ix2 (0 : Fin 1) c)) := by
  obtain ⟨a, b, u, rfl⟩ : ∃ (a b u : Fin 1), y = ix3 a b u := ⟨y 0, y 1, y 2, eq_ix3 y⟩
  obtain rfl : u = 0 := Subsingleton.elim _ _
  unfold k0_pay1
  simp only [shapeCast_self, addf_apply, shapeCast_ab_1ab_apply, shapeCast_a_1a_apply]
  rw [colSum_apply]
  refine congrArg (v62 _ + ·) (Finset.sum_congr rfl fun r _ => ?_)
  simp only [Cert.Spec.rowOfDist, mulf_apply, subf_apply, addf_apply, maximumf_apply, broadcast_apply, select_apply, cmpi_apply,
    broadcastTo_a1_ab_apply, broadcastTo_1b_ab_apply, shapeCast_a_a1_apply, shapeCast_self, scalar_ofBits, inv_99,
    Ideal.ofBits_zero_f32]
  rw [laneSum_apply]
  simp only [mulf_apply, subf_apply, addf_apply, maximumf_apply, broadcast_apply, select_apply, cmpi_apply,
    broadcastTo_a1_ab_apply, broadcastTo_1b_ab_apply, shapeCast_a_a1_apply, shapeCast_self, scalar_ofBits]
  rw [laneSum_apply]
  simp only [select_apply, cmpi_apply, broadcast_apply, broadcastTo_a1_ab_apply, broadcastTo_1b_ab_apply]

/-- The reset value of the accumulator is zero. -/
theorem pay2_apply (y : S1x1x1.Idx) : k0_pay2 (F := Ideal) y = 0 := by
  unfold k0_pay2
  simp only [shapeCast_self, broadcast_apply, scalar_ofBits, Ideal.ofBits_zero_f32]

/-- The label column passes through its cast unchanged. -/
theorem pay4_eq (v37 : Vec Ideal S8192x1 .i32) : k0_pay4 (F := Ideal) v37 = v37 := by
  unfold k0_pay4
  exact shapeCast_self v37 _

end Cert.KernelIdeal.KPay

end
-- ==== Proof.KHost.lean ====
/-
  The host operations around the kernel's one launch, read entry by entry: before it, the prototypes divided by
  `max(‖row‖, ε)`, each unit row's part `q·q - 2e·Σq + 128e²` of the squared distance, the row of class words
  `0 … 99` and the labels as a column; after it, the two cores' partial sums added and divided by the batch size.
-/
import proofs.«402777_j61521111548487_3_alg».proof.Proof.Gen.KernelIdeal.Frame
import proofs.«402777_j61521111548487_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.KHost

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- A sum along the rows of a 100×128 array, started at zero: the sum of the row's entries. -/
theorem rowSum_apply (y : (⟨S100x128, .f32⟩ : BufTy).Contents (Elt Ideal)) (j : S100.Idx) :
    Host.reduceAdd (F := Ideal) y (constant (F := Ideal) S_ .f32 0x00000000#32) reducesTo_S100x128_S100_d1 h_S_ j
      = ∑ k : Fin 128, y (ix2 (j 0) k) := by
  simp only [Host.reduceAdd, Ideal.hostReduceAdd_def]
  rw [Ideal.hostReduceAdd_single reducesTo_S100x128_S100_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The clamped norms of the rows, as a column. -/
def normT (x : (⟨S100x128, .f32⟩ : BufTy).Contents (Elt Ideal)) : (⟨S100x1, .f32⟩ : BufTy).Contents (Elt Ideal) :=
  maximumf (F := Ideal) (Host.sqrt (F := Ideal) (broadcastInDim S100x1 ![0] bcast_S100_S100x1_0
      (Host.reduceAdd (F := Ideal) (mulf (F := Ideal) (s := S100x128) (φ := .f32) x x) (constant (F := Ideal) S_ .f32 0x00000000#32) reducesTo_S100x128_S100_d1 h_S_)))
    (broadcastInDim S100x1 ![] bcast_S_S100x1 (constant (F := Ideal) S_ .f32 0x2B8CBCCC#32))

/-- A clamped norm read at a row: the larger of the root of the row's sum of squares and the clamp. -/
theorem normT_apply (x : (⟨S100x128, .f32⟩ : BufTy).Contents (Elt Ideal)) (j : S100x1.Idx) :
    normT x j = max (Ideal.sqrt (∑ k : Fin 128, x (ix2 (j 0) k) * x (ix2 (j 0) k))) Cert.Spec.E12 := by
  show max (Ideal.sqrt (broadcastInDim (s := S100) S100x1 ![0] bcast_S100_S100x1_0 _ j)) (broadcastInDim (s := S_) S100x1 ![] bcast_S_S100x1 _ j) = _
  rw [broadcastInDim_apply _ bcast_S100_S100x1_0 _ j (ix1 (j 0)) (fun a => match a with
        | ⟨0, _⟩ => by show (j 0).val = if (100 : Nat) = 1 then 0 else (j 0).val; rw [if_neg (by decide)]),
      broadcastInDim_apply _ bcast_S_S100x1 _ j ix0 (fun a => a.elim0), rowSum_apply]
  rfl

/-- The rows over their clamped norms. -/
def pnT (x : (⟨S100x128, .f32⟩ : BufTy).Contents (Elt Ideal)) : (⟨S100x128, .f32⟩ : BufTy).Contents (Elt Ideal) :=
  Host.divf (F := Ideal) (s := S100x128) (φ := .f32) x (broadcastInDim S100x128 ![0, 1] bcast_S100x1_S100x128_0_1 (normT x))

/-- An entry of a row over its clamped norm is the unit row's entry. -/
theorem pnT_apply (x : (⟨S100x128, .f32⟩ : BufTy).Contents (Elt Ideal)) (i : S100x128.Idx) :
    pnT x i = Cert.Spec.unit (Cert.Spec.rows x (i 0)) (i 1) := by
  show Ideal.div (x i) (broadcastInDim S100x128 ![0, 1] bcast_S100x1_S100x128_0_1 (normT x) i) = _
  rw [broadcastInDim_apply _ bcast_S100x1_S100x128_0_1 (normT x) i (ix2 (i 0) (0 : Fin 1)) (fun a => match a with
        | ⟨0, _⟩ => by show (i 0).val = if (100 : Nat) = 1 then 0 else (i 0).val; rw [if_neg (by decide)]
        | ⟨1, _⟩ => by show 0 = if (1 : Nat) = 1 then 0 else (i 1).val; rw [if_pos rfl]),
      normT_apply]
  have hi : x i = x (ix2 (i 0) (i 1)) := congrArg x (eq_ix2 i)
  rw [hi]
  rfl

/-- The unit prototype rows, as the operations before the launch compute them from the prototypes. -/
theorem e_pn (c : Dev nD) :
    (V m c main_v8 : (⟨S100x128, .f32⟩ : BufTy).Contents (Elt Ideal)) = pnT (m ((c : Thread nD τ).loc main_arg1)) := by
  show StableHlo.after hostOps0 (fun b => m (c, b)) (Proc.devRef .tc main_v8) = _
  after_results
  rfl

/-- The prototype rows as the launch finds them: each divided by `max(‖row‖, ε)`. -/
theorem V_pn (c : Dev nD) (i : S100x128.Idx) :
    (V m c main_v8 : S100x128.Idx → EReal) i
      = Cert.Spec.unit (Cert.Spec.rows (m ((c : Thread nD τ).loc main_arg1)) (i 0)) (i 1) := by
  exact (congrFun (e_pn m c) i).trans (pnT_apply _ i)

/-- The prototypes' parts of the squared distance, as a vector over the classes, from the unit rows. -/
def browT (q : (⟨S100x128, .f32⟩ : BufTy).Contents (Elt Ideal)) : (⟨S100, .f32⟩ : BufTy).Contents (Elt Ideal) :=
  addf (F := Ideal) (s := S100) (φ := .f32) (subf (F := Ideal) (s := S100) (φ := .f32)
      (Host.reduceAdd (F := Ideal) (mulf (F := Ideal) (s := S100x128) (φ := .f32) q q) (constant (F := Ideal) S_ .f32 0x00000000#32) reducesTo_S100x128_S100_d1 h_S_)
      (mulf (F := Ideal) (s := S100) (φ := .f32) (broadcastInDim (s := S_) S100 ![] bcast_S_S100 (constant (F := Ideal) S_ .f32 0x360637BD#32))
        (Host.reduceAdd (F := Ideal) (s := S100x128) (φ := .f32) q (constant (F := Ideal) S_ .f32 0x00000000#32) reducesTo_S100x128_S100_d1 h_S_)))
    (broadcastInDim (s := S_) S100 ![] bcast_S_S100 (constant (F := Ideal) S_ .f32 0x2F0CBCCC#32))

/-- A class's part read at its index: the row's sum of squares less `2e` times the row's sum, plus `128e²`. -/
theorem browT_apply (q : (⟨S100x128, .f32⟩ : BufTy).Contents (Elt Ideal)) (j : S100.Idx) :
    browT q j = ((∑ k : Fin 128, q (ix2 (j 0) k) * q (ix2 (j 0) k)) - Cert.Spec.C2E6 * ∑ k : Fin 128, q (ix2 (j 0) k)) + Cert.Spec.CDE2 := by
  show (Host.reduceAdd (F := Ideal) (mulf (F := Ideal) (s := S100x128) (φ := .f32) q q) (constant (F := Ideal) S_ .f32 0x00000000#32) reducesTo_S100x128_S100_d1 h_S_ j
      - broadcastInDim (s := S_) S100 ![] bcast_S_S100 (constant (F := Ideal) S_ .f32 0x360637BD#32) j
        * Host.reduceAdd (F := Ideal) (s := S100x128) (φ := .f32) q (constant (F := Ideal) S_ .f32 0x00000000#32) reducesTo_S100x128_S100_d1 h_S_ j)
      + broadcastInDim (s := S_) S100 ![] bcast_S_S100 (constant (F := Ideal) S_ .f32 0x2F0CBCCC#32) j = _
  rw [rowSum_apply, rowSum_apply,
      broadcastInDim_apply _ bcast_S_S100 (constant (F := Ideal) S_ .f32 0x360637BD#32) j ix0 (fun a => a.elim0),
      broadcastInDim_apply _ bcast_S_S100 (constant (F := Ideal) S_ .f32 0x2F0CBCCC#32) j ix0 (fun a => a.elim0)]
  rfl

/-- The parts of the squared distance, as the operations before the launch compute them from the prototypes. -/
theorem e_brow (c : Dev nD) :
    (V m c main_v17 : (⟨S1x100, .f32⟩ : BufTy).Contents (Elt Ideal))
      = shapeCast S1x100 (browT (pnT (m ((c : Thread nD τ).loc main_arg1)))) shapeCasts_S100_S1x100 := by
  show StableHlo.after hostOps0 (fun b => m (c, b)) (Proc.devRef .tc main_v17) = _
  after_results_simp
  rfl

/-- A vector over the classes read as a one-row matrix. -/
theorem asRow_apply {α : Type} (y : S100.Idx → α) (i : S1x100.Idx) :
    shapeCast S1x100 y shapeCasts_S100_S1x100 i = y (ix1 (i 1)) :=
  shapeCast_apply y shapeCasts_S100_S1x100 i (ix1 (i 1))
    (by rewrite [Shape.rowMajor_val_one, Shape.rowMajor_val_two]
        have h0 : (i 0).val < 1 := (i 0).isLt
        show (i 1).val = (i 0).val * 100 + (i 1).val
        omega)

/-- The class words: the count along the class axis, as a one-row matrix. -/
theorem e_cls (c : Dev nD) :
    (V m c main_v19 : (⟨S1x100, .i32⟩ : BufTy).Contents (Elt Ideal))
      = shapeCast S1x100 (iotaInDim S100 32 0) shapeCasts_S100_S1x100 := by
  show StableHlo.after hostOps0 (fun b => m (c, b)) (Proc.devRef .tc main_v19) = _
  after_results
  rfl

/-- The labels: the label vector as a one-column matrix. -/
theorem e_lab (c : Dev nD) :
    (V m c main_v0 : (⟨S262144x1, .i32⟩ : BufTy).Contents (Elt Ideal))
      = shapeCast S262144x1 (m ((c : Thread nD τ).loc main_arg2)) shapeCasts_S262144_S262144x1 := by
  show StableHlo.after hostOps0 (fun b => m (c, b)) (Proc.devRef .tc main_v0) = _
  after_results
  rfl

/-- The prototypes' parts of the squared distance, one per class. -/
theorem V_brow (c : Dev nD) (i : S1x100.Idx) :
    (V m c main_v17 : S1x100.Idx → EReal) i
      = Cert.Spec.browOf (Cert.Spec.unit (Cert.Spec.rows (m ((c : Thread nD τ).loc main_arg1)) (i 1))) := by
  refine (congrFun (e_brow m c) i).trans ?_
  rw [asRow_apply, browT_apply]
  simp only [Cert.Spec.browOf, Cert.Spec.sq, Cert.Spec.tot, pnT_apply]

/-- The row of class words. -/
theorem V_cls (c : Dev nD) (i : S1x100.Idx) :
    (V m c main_v19 : S1x100.Idx → BitVec 32) i = BitVec.ofNat 32 (i 1).val := by
  exact (congrFun (e_cls m c) i).trans (asRow_apply _ i)

/-- The labels as a column. -/
theorem V_lab (c : Dev nD) (i : S262144x1.Idx) :
    (V m c main_v0 : S262144x1.Idx → BitVec 32) i = m ((c : Thread nD τ).loc main_arg2) (ix1 (i 0)) := by
  exact (congrFun (e_lab m c) i).trans
    (shapeCast_apply _ shapeCasts_S262144_S262144x1 i (ix1 (i 0))
      (by rewrite [Shape.rowMajor_val_one, Shape.rowMajor_val_two]
          have h1 : (i 1).val < 1 := (i 1).isLt
          show (i 0).val = (i 0).val * 1 + (i 1).val
          omega))

/-- One entry of a 2×1×1 array, cut out and read as a scalar. -/
theorem pick0 (A : S2x1x1.Idx → EReal) (j : S_.Idx) :
    shapeCast S_ (extractStridedSlice S1x1x1 ![0, 0, 0] A slices_S2x1x1_S1x1x1_0_0_0) shapeCasts_S1x1x1_S_ j
      = A (ix3 (0 : Fin 2) (0 : Fin 1) (0 : Fin 1)) := by
  rw [shapeCast_apply _ shapeCasts_S1x1x1_S_ j (ix3 (0 : Fin 1) (0 : Fin 1) (0 : Fin 1))
    (by have hj : (S_.rowMajor j).val = 0 := Shape.rowMajorPi_zero _ j
        rewrite [Shape.rowMajor_val_three, hj]; rfl)]
  exact extractStridedSlice_apply _ A slices_S2x1x1_S1x1x1_0_0_0 _ (ix3 (0 : Fin 2) (0 : Fin 1) (0 : Fin 1))
    (fun a => match a with | ⟨0, _⟩ => rfl | ⟨1, _⟩ => rfl | ⟨2, _⟩ => rfl)

/-- The other entry likewise. -/
theorem pick1 (A : S2x1x1.Idx → EReal) (j : S_.Idx) :
    shapeCast S_ (extractStridedSlice S1x1x1 ![1, 0, 0] A slices_S2x1x1_S1x1x1_1_0_0) shapeCasts_S1x1x1_S_ j
      = A (ix3 (1 : Fin 2) (0 : Fin 1) (0 : Fin 1)) := by
  rw [shapeCast_apply _ shapeCasts_S1x1x1_S_ j (ix3 (0 : Fin 1) (0 : Fin 1) (0 : Fin 1))
    (by have hj : (S_.rowMajor j).val = 0 := Shape.rowMajorPi_zero _ j
        rewrite [Shape.rowMajor_val_three, hj]; rfl)]
  exact extractStridedSlice_apply _ A slices_S2x1x1_S1x1x1_1_0_0 _ (ix3 (1 : Fin 2) (0 : Fin 1) (0 : Fin 1))
    (fun a => match a with | ⟨0, _⟩ => rfl | ⟨1, _⟩ => rfl | ⟨2, _⟩ => rfl)

/-- The result after the launch: the two cores' partial sums added, over the batch size. -/
theorem tail_result (c : Dev nD) (A : S2x1x1.Idx → EReal) (hA : (dats m 0 c).arrAt 5 cfg0.N = A) :
    (Pipeline.afterTail₀ cfgs (dats m) 0 (V0 m) [hostOps1] c main_v26 : S_.Idx → EReal)
      = fun _ => Ideal.div (A (ix3 (0 : Fin 2) (0 : Fin 1) (0 : Fin 1)) + A (ix3 (1 : Fin 2) (0 : Fin 1) (0 : Fin 1))) Cert.Spec.NB := by
  unfold Pipeline.afterTail₀
  show StableHlo.after hostOps1 _ (Proc.devRef .tc main_v26) = _
  after_results
  have hW : (Pipeline.withArrays (cfgs 0).spec c (V0 m c) (fun w => (dats m 0 c).arrAt w (cfgs 0).N)
      (Proc.devRef .tc main_v20) : S2x1x1.Idx → EReal) = A :=
    (Pipeline.withArrays_arr spec0 launch0.win.arr_inj c _ _ 5).trans hA
  rw [hW]
  funext j
  show Ideal.div (shapeCast S_ (extractStridedSlice S1x1x1 ![0, 0, 0] A slices_S2x1x1_S1x1x1_0_0_0) shapeCasts_S1x1x1_S_ j
      + shapeCast S_ (extractStridedSlice S1x1x1 ![1, 0, 0] A slices_S2x1x1_S1x1x1_1_0_0) shapeCasts_S1x1x1_S_ j)
    (Ideal.ofBits .f32 0x48800000#32) = _
  rw [pick0, pick1]

end Cert.KernelIdeal.KHost

end
-- ==== Proof.LibSumBlocks.lean ====
/-
  A sum over `p·q` consecutive numbers is the sum over `p` blocks of the sums over the `q` numbers of each block.
-/
import Mathlib.Algebra.BigOperators.Fin
import Mathlib.Logic.Equiv.Fin.Basic

namespace Cert.LibSumBlocks

/-- The numbers below `p·q`, block by block: number `t·q + r` is entry `r` of block `t`. -/
theorem sum_fin_mul {M : Type*} [AddCommMonoid M] (p q : ℕ) (R : ℕ → M) :
    ∑ b : Fin (p * q), R b.val = ∑ t ∈ Finset.range p, ∑ r : Fin q, R (t * q + r.val) := by
  rw [Finset.sum_range, ← Equiv.sum_comp finProdFinEquiv, Fintype.sum_prod_type]
  refine Finset.sum_congr rfl fun t _ => Finset.sum_congr rfl fun r _ => ?_
  refine congrArg R ?_
  rw [finProdFinEquiv_apply_val, Nat.mul_comm, Nat.add_comm]

end Cert.LibSumBlocks
-- ==== Proof.KValue.lean ====
/-
  The kernel program's result is the first form of the batch loss.

  At grid point `t` the tile's feature block holds the feature rows `8192·t … 8192·t + 8191`, its label block those rows'
  labels, and the three resident blocks hold the unit prototype rows, their parts of the squared distance and the class
  words; so the point adds to the accumulator the sum of those rows' losses. By induction on the point the accumulator
  after point `t` holds the sum of the tiles' losses over its core's points up to `t`; a core's entry of the result array is the
  sum over the core's sixteen tiles, and the two entries added are the sum over all 262144 rows.
-/
import proofs.«402777_j61521111548487_3_alg».proof.Proof.KRun
import proofs.«402777_j61521111548487_3_alg».proof.Proof.KPay
import proofs.«402777_j61521111548487_3_alg».proof.Proof.KHost
import proofs.«402777_j61521111548487_3_alg».proof.Proof.LibSumBlocks
import proofs.«402777_j61521111548487_3_alg».proof.Proof.Spec

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KRun
open Idealize.ShloMosaic.Pipeline (Dat)

variable (m : (ℓ : Loc nD τ sig) → Buf (Elt Ideal) ℓ) (ρ : Dev nD → PrngReg)

/-- The argument arrays as rows and label words. -/
abbrev X (c : Dev nD) : Fin 262144 → Fin 128 → EReal := Cert.Spec.rows (m ((c : Thread nD τ).loc main_arg0))
abbrev P (c : Dev nD) : Fin 100 → Fin 128 → EReal := Cert.Spec.rows (m ((c : Thread nD τ).loc main_arg1))
abbrev Lb (c : Dev nD) : Fin 262144 → BitVec 32 := Cert.Spec.ents (m ((c : Thread nD τ).loc main_arg2))

/-! ### The blocks at a point, read off the argument arrays -/

theorem idxA : ∀ t : Fin cfg0.N, win0_0.index t (0 : Fin 2) = t.val ∧ win0_0.index t (1 : Fin 2) = 0
    ∧ win0_4.index t (0 : Fin 2) = t.val ∧ win0_4.index t (1 : Fin 2) = 0 :=
  (by decide +kernel : ∀ t : Fin grid0.N, _)

theorem idxB : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem row_lt (t : Fin cfg0.N) (r : Fin 8192) : t.val * 8192 + r.val < 262144 := by
  have h1 := t.isLt; have h2 : cfg0.N = 32 := N_0; have h3 := r.isLt; omega

/-- Row `r` of the tile's feature block is feature row `8192·t + r`. -/
theorem xblk_apply (c : Dev nD) (t : Fin cfg0.N) (r : Fin 8192) (k : Fin 128) :
    xblk m c t (ix2 r k) = X m c ⟨t.val * 8192 + r.val, row_lt t r⟩ k := by
  show iblk m c 0 t (ix2 r k) = _
  unfold iblk
  rw [View.read_apply]
  show V m c main_arg0 (((cfg0.win 0).blk t).view.emb (ix2 r k)) = m ((c : Thread nD τ).loc main_arg0) (ix2 _ k)
  rw [V_main_arg0]
  obtain ⟨e0, e1, -, -⟩ := idxA t
  congr 1; funext a; apply Fin.ext
  match a with
  | ⟨0, _⟩ => show win0_0.index t (0 : Fin 2) * 8192 + 1 * r.val = t.val * 8192 + r.val; rw [e0]; omega
  | ⟨1, _⟩ => show win0_0.index t (1 : Fin 2) * 128 + 1 * k.val = k.val; rw [e1]; omega

/-- Row `r` of the tile's label block is the label of row `8192·t + r`. -/
theorem lblk_apply (c : Dev nD) (t : Fin cfg0.N) (r : Fin 8192) :
    lblk m c t (ix2 r (0 : Fin 1)) = Lb m c ⟨t.val * 8192 + r.val, row_lt t r⟩ := by
  show iblk m c 4 t (ix2 r (0 : Fin 1)) = _
  unfold iblk
  rw [View.read_apply]
  show V m c main_v0 (((cfg0.win 4).blk t).view.emb (ix2 r (0 : Fin 1))) = m ((c : Thread nD τ).loc main_arg2) (ix1 _)
  rw [KHost.V_lab]
  obtain ⟨-, -, e0, e1⟩ := idxA t
  refine congrArg (fun j : Fin 262144 => m ((c : Thread nD τ).loc main_arg2) (ix1 j)) (Fin.ext ?_)
  show win0_4.index t (0 : Fin 2) * 8192 + 1 * r.val = t.val * 8192 + r.val
  rw [e0]; omega

/-- The resident blocks: unit prototype row `cc`, its part of the squared distance, and its class word. -/
theorem pblk_apply (c : Dev nD) (t : Fin cfg0.N) (cc : Fin 100) (k : Fin 128) :
    pblk m c t (ix2 cc k) = Cert.Spec.unit (P m c cc) k := by
  show iblk m c 1 t (ix2 cc k) = _
  unfold iblk
  rw [View.read_apply]
  show V m c main_v8 (((cfg0.win 1).blk t).view.emb (ix2 cc k)) = _
  obtain ⟨e0, e1, -, -, -, -⟩ := idxB t
  have he : ((cfg0.win 1).blk t).view.emb (ix2 cc k) = ix2 cc k := by
    funext a; apply Fin.ext
    match a with
    | ⟨0, _⟩ => show win0_1.index t (0 : Fin 2) * 100 + 1 * cc.val = cc.val; rw [e0]; omega
    | ⟨1, _⟩ => show win0_1.index t (1 : Fin 2) * 128 + 1 * k.val = k.val; rw [e1]; omega
  rw [he]
  exact KHost.V_pn m c (ix2 cc k)

theorem bblk_apply (c : Dev nD) (t : Fin cfg0.N) (cc : Fin 100) :
    bblk m c t (ix2 (0 : Fin 1) cc) = Cert.Spec.browOf (Cert.Spec.unit (P m c cc)) := by
  show iblk m c 2 t (ix2 (0 : Fin 1) cc) = _
  unfold iblk
  rw [View.read_apply]
  show V m c main_v17 (((cfg0.win 2).blk t).view.emb (ix2 (0 : Fin 1) cc)) = _
  obtain ⟨-, -, e0, e1, -, -⟩ := idxB t
  have he : ((cfg0.win 2).blk t).view.emb (ix2 (0 : Fin 1) cc) = ix2 (0 : Fin 1) cc := by
    funext a; apply Fin.ext
    match a with
    | ⟨0, _⟩ => show win0_2.index t (0 : Fin 2) * 1 + 1 * 0 = 0; rw [e0]
    | ⟨1, _⟩ => show win0_2.index t (1 : Fin 2) * 100 + 1 * cc.val = cc.val; rw [e1]; omega
  rw [he]
  exact KHost.V_brow m c (ix2 (0 : Fin 1) cc)

theorem cblk_apply (c : Dev nD) (t : Fin cfg0.N) (cc : Fin 100) :
    cblk m c t (ix2 (0 : Fin 1) cc) = BitVec.ofNat 32 cc.val := by
  show iblk m c 3 t (ix2 (0 : Fin 1) cc) = _
  unfold iblk
  rw [View.read_apply]
  show V m c main_v19 (((cfg0.win 3).blk t).view.emb (ix2 (0 : Fin 1) cc)) = _
  obtain ⟨-, -, -, -, e0, e1⟩ := idxB t
  have he : ((cfg0.win 3).blk t).view.emb (ix2 (0 : Fin 1) cc) = ix2 (0 : Fin 1) cc := by
    funext a; apply Fin.ext
    match a with
    | ⟨0, _⟩ => show win0_3.index t (0 : Fin 2) * 1 + 1 * 0 = 0; rw [e0]
    | ⟨1, _⟩ => show win0_3.index t (1 : Fin 2) * 100 + 1 * cc.val = cc.val; rw [e1]; omega
  rw [he]
  exact KHost.V_cls m c (ix2 (0 : Fin 1) cc)

/-! ### A point's update of the accumulator -/

/-- The loss of row number `g` of the batch (zero past the batch). -/
def rowAt (c : Dev nD) (g : ℕ) : EReal :=
  if h : g < 262144 then Cert.Spec.rowK (X m c ⟨g, h⟩) (P m c) (Lb m c ⟨g, h⟩) else 0

/-- The summed loss of tile number `t`. -/
def tileAt (c : Dev nD) (t : ℕ) : EReal := ∑ r : Fin 8192, rowAt m c (t * 8192 + r.val)

/-- A point adds its tile's summed loss to the accumulator. -/
theorem upd_apply (c : Dev nD) (t : Fin cfg0.N) (acc : Vec Ideal S1x1x1 .f32) (y : S1x1x1.Idx) :
    upd m c t acc y = acc y + tileAt m c t.val := by
  unfold upd
  refine (KPay.pay1_apply _ _ _ _ y).trans ?_
  refine congrArg (acc y + ·) ?_
  unfold tileAt
  refine Finset.sum_congr rfl fun r _ => ?_
  unfold rowAt
  rw [dif_pos (row_lt t r)]
  unfold Cert.Spec.rowK
  have h1 : (fun cc : Fin 100 => k0_pay3 (F := Ideal) (xblk m c t) (pblk m c t) (bblk m c t) (ix2 r cc))
      = fun cc => Cert.Spec.distK (X m c ⟨t.val * 8192 + r.val, row_lt t r⟩) (P m c cc) := by
    funext cc
    refine (KPay.pay3_apply (xblk m c t) (pblk m c t) (bblk m c t) r cc).trans ?_
    unfold Cert.Spec.distK
    have hx : Cert.Spec.rows (xblk m c t) r = X m c ⟨t.val * 8192 + r.val, row_lt t r⟩ := funext fun k => xblk_apply m c t r k
    have hp : Cert.Spec.rows (pblk m c t) cc = Cert.Spec.unit (P m c cc) := funext fun k => pblk_apply m c t cc k
    rw [hx, hp, bblk_apply]
  have h2 : k0_pay4 (F := Ideal) (lblk m c t) (ix2 r (0 : Fin 1)) = Lb m c ⟨t.val * 8192 + r.val, row_lt t r⟩ := by
    rw [KPay.pay4_eq]; exact lblk_apply m c t r
  have h3 : (fun cc : Fin 100 => cblk m c t (ix2 (0 : Fin 1) cc)) = fun cc => BitVec.ofNat 32 cc.val :=
    funext fun cc => cblk_apply m c t cc
  rw [h1, h2, h3]

/-! ### The accumulator after each point -/

/-- After point `n` the accumulator holds the tiles' losses of its core's points up to `n`. -/
theorem acc_eq (c : Dev nD) : ∀ (n : ℕ) (hn : n < cfg0.N) (y : S1x1x1.Idx),
    (outsAt0 m c n hn).2 y = ∑ s ∈ Finset.range (n % 16 + 1), tileAt m c (n - n % 16 + s) := by
  intro n
  induction n using Nat.strong_induction_on with
  | _ n ih =>
    intro hn y
    by_cases h0 : n % 16 = 0
    · have h : (outsAt0 m c n hn).2 = upd m c ⟨n, hn⟩ (k0_pay2 (F := Ideal)) := scr_zero m c ⟨n, hn⟩ h0
      rw [h, upd_apply, KPay.pay2_apply, zero_add, h0, Finset.sum_range_one]
      show tileAt m c n = tileAt m c (n - 0 + 0)
      rw [Nat.sub_zero, Nat.add_zero]
    · have h : (outsAt0 m c n hn).2 = upd m c ⟨n, hn⟩ (outsAt0 m c (n - 1) (Nat.lt_of_le_of_lt (Nat.sub_le _ _) hn)).2 :=
        scr_succ m c ⟨n, hn⟩ h0
      rw [h, upd_apply, ih (n - 1) (by omega) (Nat.lt_of_le_of_lt (Nat.sub_le _ _) hn) y]
      have e1 : (n - 1) % 16 + 1 = n % 16 := by omega
      have e2 : n - 1 - (n - 1) % 16 = n - n % 16 := by omega
      rw [e1, e2, Finset.sum_range_succ]
      show _ + tileAt m c n = _ + tileAt m c (n - n % 16 + n % 16)
      rw [Nat.sub_add_cancel (Nat.mod_le n 16)]

/-- A core's entry of the result array: the sum over its sixteen tiles. -/
theorem outArr_apply (c : Dev nD) (i : S2x1x1.Idx) :
    outArr m c i = ∑ s ∈ Finset.range 16, tileAt m c (16 * (i 0).val + s) := by
  unfold outArr
  rw [acc_eq]
  have e1 : (16 * (i 0).val + 15) % 16 + 1 = 16 := by omega
  have e2 : 16 * (i 0).val + 15 - (16 * (i 0).val + 15) % 16 = 16 * (i 0).val := by omega
  rw [e1, e2]

/-! ### The result -/

/-- The two cores' entries added are the sum of every row's loss. -/
theorem out_sum (c : Dev nD) :
    outArr m c (ix3 (0 : Fin 2) (0 : Fin 1) (0 : Fin 1)) + outArr m c (ix3 (1 : Fin 2) (0 : Fin 1) (0 : Fin 1))
      = ∑ b : Fin 262144, Cert.Spec.rowK (X m c b) (P m c) (Lb m c b) := by
  rw [outArr_apply, outArr_apply]
  show (∑ s ∈ Finset.range 16, tileAt m c (16 * 0 + s)) + (∑ s ∈ Finset.range 16, tileAt m c (16 * 1 + s)) = _
  rw [Nat.mul_zero, Nat.mul_one]
  simp only [Nat.zero_add]
  rw [← Finset.sum_range_add (fun t => tileAt m c t) 16 16]
  have hb := Cert.LibSumBlocks.sum_fin_mul 32 8192 (rowAt m c)
  show ∑ t ∈ Finset.range 32, tileAt m c t = _
  unfold tileAt
  rw [← hb]
  show ∑ b : Fin 262144, rowAt m c b.val = _
  refine Finset.sum_congr rfl fun b _ => ?_
  unfold rowAt
  rw [dif_pos b.isLt]

/-- The value the program returns: the first form of the batch loss of the arguments. -/
theorem tail_value (c : Dev nD) :
    (Pipeline.afterTail₀ cfgs (dats m) 0 (V0 m) [hostOps1] c main_v26 : S_.Idx → EReal)
      = fun _ => Cert.Spec.GK (X m c) (P m c) (Lb m c) := by
  rw [KHost.tail_result m c (outArr m c) (final5 m c)]
  funext _
  unfold Cert.Spec.GK
  rw [out_sum]

/-- The run, read: the result at the first form of the batch loss, the arguments unchanged. -/
theorem run : θ_run defs (onTc (τ := τ) (main (F := Ideal))) ⟨m, fun _ => 0, ρ⟩ fun r => ∀ c : Dev nD,
      r.2.mem ((c.tc : Thread nD τ).loc main_v26) = (fun _ => Cert.Spec.GK (X m c) (P m c) (Lb m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v26 (Pipeline.mem_restRefs_of main_v26 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.SpecLaw.lean ====
/-
  The two forms of the batch loss agree when every feature and prototype entry is a real number and every label word
  is a class: the squared distance's two expansions are one polynomial in finite reals; the sum over the one class whose
  word equals the label is the label's distance; at the label's own class the hinge is exactly the margin `1/2`, so
  summing every class and taking `1/2` off is summing the other classes; and dividing by `99` is multiplying by `1/99`.
-/
import proofs.«402777_j61521111548487_3_alg».proof.Proof.Spec
import Idealize.ShloMosaic.Lib.StableHlo.Predicate

noncomputable section

namespace Cert.Spec

open Idealize.ShloMosaic

/-! ### The constant words are real numbers -/

theorem HALF_eq : HALF = ((1 / 2 : ℝ) : EReal) := by
  simp [HALF, Ideal.ofBits, Ideal.ieee, -EReal.coe_mul]; norm_num

theorem C99_eq : C99 = ((99 : ℝ) : EReal) := by
  simp [C99, Ideal.ofBits, Ideal.ieee, -EReal.coe_mul]; norm_num

theorem E12_real : ∃ r : ℝ, 0 < r ∧ E12 = (r : EReal) := by
  refine ⟨_, ?_, by simp only [E12, Ideal.ofBits, Ideal.ieee]; simp [-EReal.coe_mul]; rfl⟩
  positivity

theorem C2E6_real : ∃ r : ℝ, C2E6 = (r : EReal) := by
  simp only [C2E6, Ideal.ofBits, Ideal.ieee]; simp [-EReal.coe_mul]

theorem CDE2_real : ∃ r : ℝ, CDE2 = (r : EReal) := by
  simp only [CDE2, Ideal.ofBits, Ideal.ieee]; simp [-EReal.coe_mul]

theorem TWO_real : ∃ r : ℝ, TWO = (r : EReal) := by
  simp only [TWO, Ideal.ofBits, Ideal.ieee]; simp [-EReal.coe_mul]

/-! ### Finite sums of real numbers, read on the extended reals -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of entries that are real numbers is the real sum of them. -/
theorem sum_real {ι : Type} [Fintype ι] (f : ι → EReal) (g : ι → ℝ) (h : ∀ i, f i = (g i : EReal)) :
    ∑ i, f i = ((∑ i, g i : ℝ) : EReal) := by
  rw [coe_sum]; exact Finset.sum_congr rfl (fun i _ => h i)

/-- The larger of two real numbers, read on the extended reals. -/
theorem coe_max (a b : ℝ) : ((max a b : ℝ) : EReal) = max (a : EReal) (b : EReal) :=
  EReal.coe_strictMono.monotone.map_max

/-! ### A unit row of a real row is real -/

theorem unit_real (x : Fin 128 → EReal) (hx : ∀ k, ∃ r : ℝ, x k = (r : EReal)) :
    ∃ u : Fin 128 → ℝ, ∀ k, unit x k = (u k : EReal) := by
  choose r hr using hx
  obtain ⟨e, he, hE⟩ := E12_real
  have hs : ∑ j, x j * x j = ((∑ j, r j * r j : ℝ) : EReal) :=
    sum_real _ _ (fun j => by rw [hr j, ← EReal.coe_mul])
  have h0 : ¬ (∑ j, r j * r j) < 0 := not_lt.mpr (Finset.sum_nonneg (fun j _ => mul_self_nonneg (r j)))
  have hm : max (Ideal.sqrt (∑ j, x j * x j)) E12 = ((max (Real.sqrt (∑ j, r j * r j)) e : ℝ) : EReal) := by
    rw [hs, Ideal.sqrt_coe, if_neg h0, hE, coe_max]
  have hne : max (Real.sqrt (∑ j, r j * r j)) e ≠ 0 := (lt_of_lt_of_le he (le_max_right _ _)).ne'
  refine ⟨fun k => r k * (1 / max (Real.sqrt (∑ j, r j * r j)) e), fun k => ?_⟩
  show Ideal.div (x k) (max (Ideal.sqrt (∑ j, x j * x j)) E12) = _
  rw [hm, Ideal.div_coe hne, hr k, ← EReal.coe_mul]

theorem sq_real (x : Fin 128 → EReal) (u : Fin 128 → ℝ) (h : ∀ k, x k = (u k : EReal)) :
    sq x = ((∑ k, u k * u k : ℝ) : EReal) :=
  sum_real _ _ (fun k => by rw [h k, ← EReal.coe_mul])

theorem tot_real (x : Fin 128 → EReal) (u : Fin 128 → ℝ) (h : ∀ k, x k = (u k : EReal)) :
    tot x = ((∑ k, u k : ℝ) : EReal) :=
  sum_real _ _ h

theorem dot_real (x y : Fin 128 → EReal) (u v : Fin 128 → ℝ) (hx : ∀ k, x k = (u k : EReal))
    (hy : ∀ k, y k = (v k : EReal)) : dot x y = ((∑ k, u k * v k : ℝ) : EReal) :=
  sum_real _ _ (fun k => by rw [hx k, hy k, ← EReal.coe_mul])

/-! ### The two expansions of the squared distance are one polynomial -/

theorem poly_eq (a b s t m c2 cd two : ℝ) :
    ((a : EReal) + c2 * s) + ((((b : EReal) - c2 * t) + cd) - two * m)
      = (((((a : EReal) + b) - two * m) + c2 * ((s : EReal) - t)) + cd) := by
  have h : (a + c2 * s) + (((b - c2 * t) + cd) - two * m) = ((((a + b) - two * m) + c2 * (s - t)) + cd) := by ring
  exact_mod_cast congrArg (fun z : ℝ => (z : EReal)) h

theorem distK_eq_distR (x p : Fin 128 → EReal) (hx : ∀ k, ∃ r : ℝ, x k = (r : EReal))
    (hp : ∀ k, ∃ r : ℝ, p k = (r : EReal)) : distK x p = distR x p := by
  obtain ⟨u, hu⟩ := unit_real x hx
  obtain ⟨v, hv⟩ := unit_real p hp
  obtain ⟨c2, h2⟩ := C2E6_real
  obtain ⟨cd, hd⟩ := CDE2_real
  obtain ⟨two, ht⟩ := TWO_real
  unfold distK distOf browOf distR
  rw [sq_real _ u hu, sq_real _ v hv, tot_real _ u hu, tot_real _ v hv, dot_real _ _ u v hu hv, h2, hd, ht, poly_eq]

theorem distR_real (x p : Fin 128 → EReal) (hx : ∀ k, ∃ r : ℝ, x k = (r : EReal))
    (hp : ∀ k, ∃ r : ℝ, p k = (r : EReal)) : ∃ r : ℝ, distR x p = (r : EReal) := by
  obtain ⟨u, hu⟩ := unit_real x hx
  obtain ⟨v, hv⟩ := unit_real p hp
  obtain ⟨c2, h2⟩ := C2E6_real
  obtain ⟨cd, hd⟩ := CDE2_real
  obtain ⟨two, ht⟩ := TWO_real
  obtain ⟨e, he, hE⟩ := E12_real
  unfold distR
  rw [sq_real _ u hu, sq_real _ v hv, tot_real _ u hu, tot_real _ v hv, dot_real _ _ u v hu hv, h2, hd, ht, hE]
  simp only [← EReal.coe_mul, ← EReal.coe_add, ← EReal.coe_sub, ← coe_max]
  rw [Ideal.sqrt_coe, if_neg (not_lt.mpr (le_trans he.le (le_max_right _ _)))]
  exact ⟨_, rfl⟩

/-! ### A label word that is a class -/

theorem ofNat_fin_inj {a b : Fin 100} : BitVec.ofNat 32 a.val = BitVec.ofNat 32 b.val ↔ a = b := by
  constructor
  · intro h
    have ha := a.isLt
    have hb := b.isLt
    have := congrArg BitVec.toNat h
    simp only [BitVec.toNat_ofNat] at this
    exact Fin.ext (by omega)
  · rintro rfl; rfl

theorem wrapLabel_class (lc : Fin 100) : wrapLabel (BitVec.ofNat 32 lc.val) = BitVec.ofNat 32 lc.val := by
  have hlt := lc.isLt
  have h : ¬ IntOp.cmpi .slt (BitVec.ofNat 32 lc.val) 0#32 = 1#1 := by
    rw [StableHlo.Predicate.slt_iff_toNat (by simp only [BitVec.toNat_ofNat]; omega) (by decide)]
    simp
  unfold wrapLabel Scalar.select
  exact if_neg h

theorem inbLabel_class (lc : Fin 100) : inbLabel (BitVec.ofNat 32 lc.val) = 1#1 := by
  have hlt := lc.isLt
  have h1 : IntOp.cmpi .sge (BitVec.ofNat 32 lc.val) 0#32 = 1#1 :=
    (StableHlo.Predicate.sge_iff_toNat (by simp only [BitVec.toNat_ofNat]; omega) (by decide)).mpr (by simp)
  have h2 : IntOp.cmpi .sle (BitVec.ofNat 32 lc.val) 99#32 = 1#1 :=
    (StableHlo.Predicate.sle_iff_toNat (by simp only [BitVec.toNat_ofNat]; omega) (by decide)).mpr
      (by simp only [BitVec.toNat_ofNat]; omega)
  unfold inbLabel
  rw [wrapLabel_class, h1, h2]; rfl

theorem colLabel_class (lc : Fin 100) : colLabel (BitVec.ofNat 32 lc.val) = lc := by
  have hlt := lc.isLt
  apply Fin.ext
  show min (wrapLabel (BitVec.ofNat 32 lc.val)).toInt.toNat 99 = lc.val
  rw [wrapLabel_class, StableHlo.Predicate.toInt_ofNat_small _ (by omega), Int.toNat_natCast]
  omega

theorem cmpi_ne_iff {a b : BitVec 32} : IntOp.cmpi .ne a b = 1#1 ↔ a ≠ b := by
  simp only [IntOp.cmpi, StableHlo.Predicate.ofBool_eq_one_iff, bne_iff_ne]

/-! ### A row's loss: every class summed with the margin taken off is the other classes summed -/

/-- At the label's own class the hinge is the margin, so taking it off the full sum leaves the other classes. -/
theorem hinge_split (r : Fin 100 → ℝ) (lc : Fin 100) :
    (∑ c, max (r lc + 1 / 2 - r c) 0) - 1 / 2 = ∑ c, if c ≠ lc then max (r lc - r c + 1 / 2) 0 else 0 := by
  have h : ∀ c, (if c ≠ lc then max (r lc - r c + 1 / 2) 0 else 0)
      = max (r lc + 1 / 2 - r c) 0 - if c = lc then 1 / 2 else 0 := by
    intro c
    by_cases hc : c = lc
    · subst hc
      have : r c + 1 / 2 - r c = 1 / 2 := by ring
      rw [if_neg (not_not.mpr rfl), if_pos rfl, this, max_eq_left (by norm_num)]; ring
    · have : r lc - r c + 1 / 2 = r lc + 1 / 2 - r c := by ring
      rw [if_pos hc, if_neg hc, this, sub_zero]
  rw [Finset.sum_congr rfl (fun c _ => h c), Finset.sum_sub_distrib, Finset.sum_ite_eq' Finset.univ lc,
    if_pos (Finset.mem_univ lc)]

theorem row_eq (d : Fin 100 → EReal) (r : Fin 100 → ℝ) (hd : ∀ c, d c = (r c : EReal)) (lc : Fin 100) :
    rowOfDist d (BitVec.ofNat 32 lc.val) (fun c => BitVec.ofNat 32 c.val)
      = rowOfDistR d (BitVec.ofNat 32 lc.val) (inbLabel (BitVec.ofNat 32 lc.val))
          (colLabel (BitVec.ofNat 32 lc.val)) := by
  rw [inbLabel_class, colLabel_class]
  unfold rowOfDist rowOfDistR
  -- the sum over the one class whose word is the label is the label's distance
  have hsel : ∑ c', Scalar.select (IntOp.cmpi .eq (BitVec.ofNat 32 lc.val) (BitVec.ofNat 32 c'.val)) (d c') 0
      = d lc := by
    rw [Finset.sum_eq_single lc]
    · unfold Scalar.select
      exact if_pos (StableHlo.Predicate.cmpi_eq_iff.mpr rfl)
    · intro c _ hc
      unfold Scalar.select
      exact if_neg (fun h => hc (ofNat_fin_inj.mp (StableHlo.Predicate.cmpi_eq_iff.mp h)).symm)
    · intro h; exact absurd (Finset.mem_univ lc) h
  -- every class's hinge, as a real number
  have hL : ∑ c, max (((∑ c', Scalar.select (IntOp.cmpi .eq (BitVec.ofNat 32 lc.val) (BitVec.ofNat 32 c'.val))
      (d c') 0) + HALF) - d c) 0 = ((∑ c, max (r lc + 1 / 2 - r c) 0 : ℝ) : EReal) := by
    refine sum_real _ _ (fun c => ?_)
    rw [hsel, hd lc, hd c, HALF_eq, ← EReal.coe_add, ← EReal.coe_sub, ← EReal.coe_zero, ← coe_max]
  -- the other classes' hinges, as real numbers
  have hR : ∑ c : Fin 100, Scalar.select (IntOp.cmpi .ne (BitVec.ofNat 32 c.val) (BitVec.ofNat 32 lc.val))
      (max ((Scalar.select 1#1 (d lc) FILL - d c) + HALF) 0) 0
      = ((∑ c, (if c ≠ lc then max (r lc - r c + 1 / 2) 0 else 0) : ℝ) : EReal) := by
    refine sum_real _ _ (fun c => ?_)
    have h1 : Scalar.select 1#1 (d lc) FILL = d lc := by unfold Scalar.select; exact if_pos rfl
    rw [h1, hd lc, hd c, HALF_eq, ← EReal.coe_sub, ← EReal.coe_add, ← EReal.coe_zero, ← coe_max]
    unfold Scalar.select
    by_cases hc : c = lc
    · have hn : ¬ IntOp.cmpi .ne (BitVec.ofNat 32 c.val) (BitVec.ofNat 32 lc.val) = (1 : BitVec 1) :=
        fun h => cmpi_ne_iff.mp h (ofNat_fin_inj.mpr hc)
      rw [if_neg hn, if_neg (not_not.mpr hc)]
    · have hn : IntOp.cmpi .ne (BitVec.ofNat 32 c.val) (BitVec.ofNat 32 lc.val) = (1 : BitVec 1) :=
        cmpi_ne_iff.mpr (fun h => hc (ofNat_fin_inj.mp h))
      rw [if_pos hn, if_pos hc]
  rw [hL, hR, HALF_eq, C99_eq, Ideal.div_coe (by norm_num), ← EReal.coe_sub, hinge_split]

/-! ### The rows and the batch -/

theorem rowK_eq_rowR (x : Fin 128 → EReal) (P : Fin 100 → Fin 128 → EReal) (lc : Fin 100)
    (hx : ∀ k, ∃ r : ℝ, x k = (r : EReal)) (hP : ∀ c k, ∃ r : ℝ, P c k = (r : EReal)) :
    rowK x P (BitVec.ofNat 32 lc.val) = rowR x P (BitVec.ofNat 32 lc.val) := by
  have hd : ∀ c, ∃ r : ℝ, distR x (P c) = (r : EReal) := fun c => distR_real x (P c) hx (hP c)
  choose r hr using hd
  have hK : (fun c => distK x (P c)) = (fun c => distR x (P c)) :=
    funext (fun c => distK_eq_distR x (P c) hx (hP c))
  unfold rowK rowR
  rw [hK]
  exact row_eq _ r hr lc

/-- The batch loss's two forms agree on finite entries and labels that are classes. -/
theorem GK_eq_GR (X : Fin 262144 → Fin 128 → EReal) (P : Fin 100 → Fin 128 → EReal) (L : Fin 262144 → BitVec 32)
    (hX : ∀ b k, ∃ r : ℝ, X b k = (r : EReal)) (hP : ∀ c k, ∃ r : ℝ, P c k = (r : EReal))
    (hL : ∀ b, ∃ lc : Fin 100, L b = BitVec.ofNat 32 lc.val) :
    GK X P L = GR X P L := by
  have h : (fun b => rowK (X b) P (L b)) = (fun b => rowR (X b) P (L b)) := by
    funext b
    obtain ⟨lc, hlc⟩ := hL b
    rw [hlc]
    exact rowK_eq_rowR (X b) P lc (hX b) hP
  unfold GK GR
  rw [h]

end Cert.Spec

end
-- ==== Proof.PreFacts.lean ====
/-
  What the precondition says of the argument arrays: every feature and prototype entry is a real number (its absolute
  value is below `+∞`), and every label word, read signed, is at least `0` and below `100`, so it is the word of a class.
-/
import proofs.«402777_j61521111548487_3_alg».proof.Pre_finite_inputs
import proofs.«402777_j61521111548487_3_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- The word of `+∞` denotes the top of the extended reals. -/
theorem ofBits_inf : Ideal.ofBits .f32 0x7F800000#32 = (⊤ : EReal) := by simp [Ideal.ofBits, Ideal.ieee]

/-- An extended real whose absolute value `max x (-x)` tests below `+∞` is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

/-- A 32-bit word that reads signed at least `0` and below `100` is the word of a class. -/
theorem class_of_bounds (l : BitVec 32) (h0 : IntOp.cmpi .sge l 0#32 = 1#1) (h1 : IntOp.cmpi .slt l 100#32 = 1#1) :
    ∃ lc : Fin 100, l = BitVec.ofNat 32 lc.val := by
  rw [IntOp.cmpi_sge] at h0
  rw [IntOp.cmpi_slt] at h1
  rw [show (0#32 : BitVec 32).toInt = 0 from by decide] at h0
  rw [show (100#32 : BitVec 32).toInt = 100 from by decide] at h1
  have hlt : l.toNat < 2 ^ 32 := l.isLt
  have hn : l.toNat < 100 := by
    rw [BitVec.toInt_eq_toNat_cond] at h0 h1
    split at h0 <;> omega
  refine ⟨⟨l.toNat, hn⟩, BitVec.eq_of_toNat_eq ?_⟩
  rw [BitVec.toNat_ofNat]
  show l.toNat = l.toNat % 2 ^ 32
  omega

/-- From the precondition's value `1`: the entries are reals and the labels are classes. -/
theorem of_pre (a0 : FVec Ideal S262144x128 .f32) (a1 : FVec Ideal S100x128 .f32) (a2 : IVec S262144 32)
    (h : Cert.Pre_finite_inputs.fn (F := Ideal) a0 a1 a2 = fun _ => 1#1) :
    (∀ b k, ∃ r : ℝ, Cert.Spec.rows a0 b k = (r : EReal))
    ∧ (∀ c k, ∃ r : ℝ, Cert.Spec.rows a1 c k = (r : EReal))
    ∧ (∀ b, ∃ lc : Fin 100, Cert.Spec.ents a2 b = BitVec.ofNat 32 lc.val) := by
  have h0 := congrFun h ValueIdx.ix0
  dsimp only [Cert.Pre_finite_inputs.fn, Cert.Pre_finite_inputs.fn_part1] at h0
  obtain ⟨h12, h15⟩ := IntOp.andi_eq_one.1 h0
  obtain ⟨h8, h11⟩ := IntOp.andi_eq_one.1 h12
  obtain ⟨h3, h7⟩ := IntOp.andi_eq_one.1 h8
  have e3 := Host.reduce_andi_all _ _ _ _ _ h3
  have e7 := Host.reduce_andi_all _ _ _ _ _ h7
  have e11 := Host.reduce_andi_all _ _ _ _ _ h11
  have e15 := Host.reduce_andi_all _ _ _ _ _ h15
  refine ⟨fun b k => ?_, fun c k => ?_, fun b => ?_⟩
  · have e := e3 (ix2 b k)
    rw [cmpf_apply, StableHlo.Predicate.bcast_scalar _ Facts.h_S_, constant_apply, ofBits_inf] at e
    exact real_of_abs_lt_top _ e
  · have e := e7 (ix2 c k)
    rw [cmpf_apply, StableHlo.Predicate.bcast_scalar _ Facts.h_S_, constant_apply, ofBits_inf] at e
    exact real_of_abs_lt_top _ e
  · have ea := e11 (ix1 b)
    have eb := e15 (ix1 b)
    exact class_of_bounds _ ea eb

end Cert.PreFacts

end
-- ==== Proof.lean ====
/-
  The kernel computes the mean triplet loss of 262144 feature rows against 100 class prototypes tile by tile — two
  cores, sixteen tiles of 8192 rows each, every tile's summed loss added into a per-core accumulator that is written out
  at the core's last tile — and the host adds the two partial sums and divides by the batch size. The reference
  computes the same loss on whole arrays. Both normalise rows by `max(‖row‖, ε)` and take the distance
  `√max(‖f - q + e‖², ε)` through the expansion of the square; they differ in how the expansion is grouped, in how
  the label's distance is picked (a masked row sum against a gather), in how the label's own class is left out of the
  hinge sum (its term `1/2` subtracted against a mask), in multiplying by the named `1/99` against dividing by `99`, and
  in the order of the sums. On the extended reals these agree once every entry is a real number and every label is one
  of the hundred classes, which is what the precondition says.

  The frames of the two kernel programs are the generated ones; the reference's frame is its run with the result
  dropped; the one rewrite of the idealization names the constant `1/99`.
-/
import proofs.«402777_j61521111548487_3_alg».proof.Defs
import proofs.«402777_j61521111548487_3_alg».proof.Proof.Gen.Kernel
import proofs.«402777_j61521111548487_3_alg».proof.Proof.Gen.Kernel.Skeleton
import proofs.«402777_j61521111548487_3_alg».proof.Proof.Gen.Kernel.Launch
import proofs.«402777_j61521111548487_3_alg».proof.Proof.Gen.Kernel.Points
import proofs.«402777_j61521111548487_3_alg».proof.Proof.Gen.Kernel.Frame
import proofs.«402777_j61521111548487_3_alg».proof.Proof.Gen.KernelIdeal
import proofs.«402777_j61521111548487_3_alg».proof.Proof.Gen.KernelIdeal.Skeleton
import proofs.«402777_j61521111548487_3_alg».proof.Proof.Gen.KernelIdeal.Launch
import proofs.«402777_j61521111548487_3_alg».proof.Proof.Gen.KernelIdeal.Points
import proofs.«402777_j61521111548487_3_alg».proof.Proof.Gen.KernelIdeal.Frame
import proofs.«402777_j61521111548487_3_alg».proof.Proof.Gen.ReferenceIdeal
import proofs.«402777_j61521111548487_3_alg».proof.Proof.Gen.Pre_finite_inputs
import proofs.«402777_j61521111548487_3_alg».proof.Proof.RefRun
import proofs.«402777_j61521111548487_3_alg».proof.Proof.RefRead
import proofs.«402777_j61521111548487_3_alg».proof.Proof.RefDist
import proofs.«402777_j61521111548487_3_alg».proof.Proof.RefGather
import proofs.«402777_j61521111548487_3_alg».proof.Proof.RefValue
import proofs.«402777_j61521111548487_3_alg».proof.Proof.KValue
import proofs.«402777_j61521111548487_3_alg».proof.Proof.SpecLaw
import proofs.«402777_j61521111548487_3_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The one rewrite of the idealization: the constant the kernel multiplies a row's hinge sum by is `1/99`. -/
theorem preserves : Cert.preserves_Kernel_KernelIdeal :=
  IdealRules.named_const.statement Cert.KernelIdeal.κ "inv_99" .f32 0x3C257EB5#32 ((1 / 99 : ℝ) : EReal) rfl

/-- Both programs end at the batch loss: the kernel at its first form, the reference at its second, of arguments that
    agree; the precondition makes the entries real and the labels classes, where the two forms are equal. -/
theorem algebraic : Cert.algebraic_KernelIdeal_ReferenceIdeal := by
  intro m ρ m' ρ' hpre hagree
  refine ⟨fun c => (fun _ => Cert.Spec.GK (Cert.KernelIdeal.KValue.X m c) (Cert.KernelIdeal.KValue.P m c) (Cert.KernelIdeal.KValue.Lb m c)),
    Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v63_eq,
    Cert.ReferenceIdeal.RefValue.ref_is_GR Cert.ReferenceIdeal.RefDist.dist_apply
      Cert.ReferenceIdeal.RefGather.gather_apply Cert.ReferenceIdeal.RefGather.reduce_and_apply,
    (hagree c).1, (hagree c).2.1, (hagree c).2.2]
  obtain ⟨hX, hP, hL⟩ := Cert.PreFacts.of_pre _ _ _ (hpre c)
  funext _
  exact (Cert.Spec.GK_eq_GR _ _ _ hX hP hL).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
